-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_temp" .f32 0x41649249#32 ((134217728 / 9395241 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v31)) (v1 : (c : Dev Cert.KernelIdeal.nD) → Buf (Elt Ideal) ((c.tc : Thread Cert.KernelIdeal.nD Cert.KernelIdeal.τ).loc Cert.KernelIdeal.main_v18_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_v18_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192 : Shape := ⟨1, ![8192]⟩
abbrev S8192x64 : Shape := ⟨2, ![8192, 64]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel

variable [Facts]

def fn {F : FTy → Type} [FloatOps F] (main_arg0 : IVec S8192 32) (main_arg1 : FVec F S8192x64 .f32) (main_arg2 : FVec F S8192x64 .f32) : IVec S_ 1 :=
  let main_v0 : FVec F S8192x64 .f32 := Host.absf main_arg1
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S8192x64 .f32 := Host.absf main_arg2
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  main_v8
-- ==== Kernel.lean ====
abbrev S8192 : Shape := ⟨1, ![8192]⟩
abbrev S8192x64 : Shape := ⟨2, ![8192, 64]⟩
abbrev S8192x1 : Shape := ⟨2, ![8192, 1]⟩
abbrev S1x8192 : Shape := ⟨2, ![1, 8192]⟩
abbrev S_ : Shape := ⟨0, ![]⟩
abbrev S8192x8192 : Shape := ⟨2, ![8192, 8192]⟩
abbrev S1024x64 : Shape := ⟨2, ![1024, 64]⟩
abbrev S1024x1 : Shape := ⟨2, ![1024, 1]⟩
abbrev S1x1024 : Shape := ⟨2, ![1, 1024]⟩
abbrev S1024x1024 : Shape := ⟨2, ![1024, 1024]⟩
abbrev S1024 : Shape := ⟨1, ![1024]⟩
abbrev S1 : Shape := ⟨1, ![1]⟩

abbrev nBuf : Space → Nat
  | .hbm => 51
  | .vmem => 14
  | .smem => 0
  | _ => 0

abbrev bufTy : (tb : Table) → Fin (tcTables nBuf tb) → BufTy
  | .hbm, ⟨0, _⟩ => ⟨S8192, .i32⟩
  | .hbm, ⟨1, _⟩ => ⟨S8192x64, .f32⟩
  | .hbm, ⟨2, _⟩ => ⟨S8192x64, .f32⟩
  | .hbm, ⟨3, _⟩ => ⟨S8192x1, .i32⟩
  | .hbm, ⟨4, _⟩ => ⟨S1x8192, .i32⟩
  | .hbm, ⟨5, _⟩ => ⟨S8192x64, .f32⟩
  | .hbm, ⟨6, _⟩ => ⟨S_, .f32⟩
  | .hbm, ⟨7, _⟩ => ⟨S8192, .f32⟩
  | .hbm, ⟨8, _⟩ => ⟨S8192, .f32⟩
  | .hbm, ⟨9, _⟩ => ⟨S8192x64, .f32⟩
  | .hbm, ⟨10, _⟩ => ⟨S_, .f32⟩
  | .hbm, ⟨11, _⟩ => ⟨S8192, .f32⟩
  | .hbm, ⟨12, _⟩ => ⟨S8192, .f32⟩
  | .hbm, ⟨13, _⟩ => ⟨S_, .f32⟩
  | .hbm, ⟨14, _⟩ => ⟨S8192, .f32⟩
  | .hbm, ⟨15, _⟩ => ⟨S8192, .f32⟩
  | .hbm, ⟨16, _⟩ => ⟨S_, .f32⟩
  | .hbm, ⟨17, _⟩ => ⟨S8192, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S_, .f32⟩
  | .hbm, ⟨24, _⟩ => ⟨S8192, .f32⟩
  | .hbm, ⟨25, _⟩ => ⟨S8192, .f32⟩
  | .hbm, ⟨26, _⟩ => ⟨S8192x1, .f32⟩
  | .hbm, ⟨27, _⟩ => ⟨S8192x64, .f32⟩
  | .hbm, ⟨28, _⟩ => ⟨S8192x64, .f32⟩
  | .hbm, ⟨29, _⟩ => ⟨S8192x64, .f32⟩
  | .hbm, ⟨30, _⟩ => ⟨S8192x64, .f32⟩
  | .hbm, ⟨31, _⟩ => ⟨S8192x8192, .f32⟩
  | .hbm, ⟨32, _⟩ => ⟨S8192x1, .f32⟩
  | .hbm, ⟨33, _⟩ => ⟨S8192x1, .f32⟩
  | .hbm, ⟨34, _⟩ => ⟨S8192, .f32⟩
  | .hbm, ⟨35, _⟩ => ⟨S8192, .f32⟩
  | .hbm, ⟨36, _⟩ => ⟨S_, .f32⟩
  | .hbm, ⟨37, _⟩ => ⟨S8192, .f32⟩
  | .hbm, ⟨38, _⟩ => ⟨S8192, .i1⟩
  | .hbm, ⟨39, _⟩ => ⟨S_, .f32⟩
  | .hbm, ⟨40, _⟩ => ⟨S8192, .f32⟩
  | .hbm, ⟨41, _⟩ => ⟨S8192, .f32⟩
  | .hbm, ⟨42, _⟩ => ⟨S8192, .f32⟩
  | .hbm, ⟨43, _⟩ => ⟨S8192, .f32⟩
  | .hbm, ⟨44, _⟩ => ⟨S8192, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S1, .f32⟩
  | .local _ .vmem, ⟨0, _⟩ => ⟨S1024x64, .f32⟩
  | .local _ .vmem, ⟨1, _⟩ => ⟨S1024x64, .f32⟩
  | .local _ .vmem, ⟨2, _⟩ => ⟨S1024x64, .f32⟩
  | .local _ .vmem, ⟨3, _⟩ => ⟨S1024x64, .f32⟩
  | .local _ .vmem, ⟨4, _⟩ => ⟨S1024x1, .i32⟩
  | .local _ .vmem, ⟨5, _⟩ => ⟨S1024x1, .i32⟩
  | .local _ .vmem, ⟨6, _⟩ => ⟨S1x1024, .i32⟩
  | .local _ .vmem, ⟨7, _⟩ => ⟨S1x1024, .i32⟩
  | .local _ .vmem, ⟨8, _⟩ => ⟨S1024x1024, .f32⟩
  | .local _ .vmem, ⟨9, _⟩ => ⟨S1024x1024, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | .local _ .vmem, ⟨13, _⟩ => ⟨S1024x1, .f32⟩
  | _, _ => ⟨S8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_v2 : Ref sig .tc := ⟨.hbm, 8, rfl⟩
abbrev main_call1_v0 : Ref sig .tc := ⟨.hbm, 9, rfl⟩
abbrev main_call1_cst : Ref sig .tc := ⟨.hbm, 10, rfl⟩
abbrev main_call1_v1 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18_0 : Ref sig .tc := ⟨.hbm, 31, rfl⟩
abbrev main_v18_1 : Ref sig .tc := ⟨.hbm, 32, rfl⟩
abbrev main_v18_2 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_cst_4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_5 : Ref sig .tc := ⟨.hbm, 45, rfl⟩
abbrev main_v28 : Ref sig .tc := ⟨.hbm, 46, rfl⟩
abbrev main_cst_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  shapeCasts_S8192_S8192x1 : S8192.ShapeCasts S8192x1
  shapeCasts_S8192_S1x8192 : S8192.ShapeCasts S1x8192
  reducesTo_S8192x64_S8192_d1 : S8192x64.ReducesTo [1] S8192
  h_S_ : 0 < S_.numel
  bcast_S_S8192 : S_.BroadcastsInDim S8192 (![] : Fin 0 → Fin S8192.rank)
  bcast_S8192x1_S8192x64_0_1 : S8192x1.BroadcastsInDim S8192x64 (![0, 1] : Fin 2 → Fin S8192x64.rank)
  inb_S1024x1_S1024x1_0_0 : ∀ a, (![0, 0] : Fin 2 → Nat) a + S1024x1.size a ≤ S1024x1.size a
  h_S1024x1 : 0 < S1024x1.numel
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S1024_S1024x1 : S1024.ShapeCasts S1024x1
  shapeCasts_S8192x1_S8192 : S8192x1.ShapeCasts S8192
  reducesTo_S8192_S_d0 : S8192.ReducesTo [0] S_
  shapeCasts_S_S1 : S_.ShapeCasts S1
  dot_S1024x64_S1024x64_S1024x1024_1_1_0_0_n_n_wf : DotDims.WF S1024x64 S1024x64 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S8192x64.size a
  hwx0_0 : ∀ i : grid0.Coords, EltTy.bits .f32 = 32 ∨ (Rect.block (s := S8192x64) S1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S8192x64.size a
  hwx0_1 : ∀ i : grid0.Coords, EltTy.bits .f32 = 32 ∨ (Rect.block (s := S8192x64) S1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .i32 = 32 ∨ (Rect.block (s := S8192x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .i32 = 32 ∨ (Rect.block (s := S1x8192) S1x1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x8192.size a
  hwx0_4 : ∀ i : grid0.Coords, EltTy.bits .f32 = 32 ∨ (Rect.block (s := S8192x8192) S1024x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S8192x1.size a
  hwx0_5 : ∀ i : grid0.Coords, EltTy.bits .f32 = 32 ∨ (Rect.block (s := S8192x1) S1024x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1.size a ≤ S8192x1.size a
  hwx0_6 : ∀ i : grid0.Coords, EltTy.bits .f32 = 32 ∨ (Rect.block (s := S8192x1) S1024x1.size (cc0_transform_6 i) (hinb0_6 i)).WholeWords (EltTy.packing .f32)

variable [Facts₀]

def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf

abbrev win0_0 : Pipeline.Window sig grid0 :=
  Pipeline.Window.ofSpec (Memref.whole main_v15) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v18_0) S1024x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v18_1) S1024x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v18_2) S1024x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192 : Shape := ⟨1, ![8192]⟩
abbrev S8192x64 : Shape := ⟨2, ![8192, 64]⟩
abbrev S_ : Shape := ⟨0, ![]⟩
abbrev S64x8192 : Shape := ⟨2, ![64, 8192]⟩
abbrev S8192x8192 : Shape := ⟨2, ![8192, 8192]⟩
abbrev S8192x1 : Shape := ⟨2, ![8192, 1]⟩
abbrev S1x8192 : Shape := ⟨2, ![1, 8192]⟩
abbrev S1 : Shape := ⟨1, ![1]⟩

abbrev nBuf : Space → Nat
  | .hbm => 57
  | .vmem => 0
  | .smem => 0
  | _ => 0

abbrev bufTy : (tb : Table) → Fin (tcTables nBuf tb) → BufTy
  | .hbm, ⟨0, _⟩ => ⟨S8192, .i32⟩
  | .hbm, ⟨1, _⟩ => ⟨S8192x64, .f32⟩
  | .hbm, ⟨2, _⟩ => ⟨S8192x64, .f32⟩
  | .hbm, ⟨3, _⟩ => ⟨S8192x64, .f32⟩
  | .hbm, ⟨4, _⟩ => ⟨S_, .f32⟩
  | .hbm, ⟨5, _⟩ => ⟨S8192, .f32⟩
  | .hbm, ⟨6, _⟩ => ⟨S8192, .f32⟩
  | .hbm, ⟨7, _⟩ => ⟨S_, .f32⟩
  | .hbm, ⟨8, _⟩ => ⟨S8192, .f32⟩
  | .hbm, ⟨9, _⟩ => ⟨S8192, .f32⟩
  | .hbm, ⟨10, _⟩ => ⟨S8192x64, .f32⟩
  | .hbm, ⟨11, _⟩ => ⟨S_, .f32⟩
  | .hbm, ⟨12, _⟩ => ⟨S8192, .f32⟩
  | .hbm, ⟨13, _⟩ => ⟨S8192, .f32⟩
  | .hbm, ⟨14, _⟩ => ⟨S_, .f32⟩
  | .hbm, ⟨15, _⟩ => ⟨S8192, .f32⟩
  | .hbm, ⟨16, _⟩ => ⟨S8192, .f32⟩
  | .hbm, ⟨17, _⟩ => ⟨S64x8192, .f32⟩
  | .hbm, ⟨18, _⟩ => ⟨S8192x8192, .f32⟩
  | .hbm, ⟨19, _⟩ => ⟨S8192x1, .f32⟩
  | .hbm, ⟨20, _⟩ => ⟨S1x8192, .f32⟩
  | .hbm, ⟨21, _⟩ => ⟨S8192x8192, .f32⟩
  | .hbm, ⟨22, _⟩ => ⟨S8192x8192, .f32⟩
  | .hbm, ⟨23, _⟩ => ⟨S8192x8192, .f32⟩
  | .hbm, ⟨24, _⟩ => ⟨S8192x8192, .f32⟩
  | .hbm, ⟨25, _⟩ => ⟨S_, .f32⟩
  | .hbm, ⟨26, _⟩ => ⟨S8192x8192, .f32⟩
  | .hbm, ⟨27, _⟩ => ⟨S8192x8192, .f32⟩
  | .hbm, ⟨28, _⟩ => ⟨S8192x8192, .f32⟩
  | .hbm, ⟨29, _⟩ => ⟨S8192x1, .i32⟩
  | .hbm, ⟨30, _⟩ => ⟨S1x8192, .i32⟩
  | .hbm, ⟨31, _⟩ => ⟨S8192x8192, .i32⟩
  | .hbm, ⟨32, _⟩ => ⟨S8192x8192, .i32⟩
  | .hbm, ⟨33, _⟩ => ⟨S8192x8192, .i1⟩
  | .hbm, ⟨34, _⟩ => ⟨S_, .f32⟩
  | .hbm, ⟨35, _⟩ => ⟨S_, .f32⟩
  | .hbm, ⟨36, _⟩ => ⟨S8192x8192, .f32⟩
  | .hbm, ⟨37, _⟩ => ⟨S8192x8192, .f32⟩
  | .hbm, ⟨38, _⟩ => ⟨S_, .f32⟩
  | .hbm, ⟨39, _⟩ => ⟨S8192, .f32⟩
  | .hbm, ⟨40, _⟩ => ⟨S_, .f32⟩
  | .hbm, ⟨41, _⟩ => ⟨S8192, .f32⟩
  | .hbm, ⟨42, _⟩ => ⟨S_, .f32⟩
  | .hbm, ⟨43, _⟩ => ⟨S8192, .f32⟩
  | .hbm, ⟨44, _⟩ => ⟨S8192, .i1⟩
  | .hbm, ⟨45, _⟩ => ⟨S_, .f32⟩
  | .hbm, ⟨46, _⟩ => ⟨S8192, .f32⟩
  | .hbm, ⟨47, _⟩ => ⟨S8192, .f32⟩
  | .hbm, ⟨48, _⟩ => ⟨S8192, .f32⟩
  | .hbm, ⟨49, _⟩ => ⟨S8192, .f32⟩
  | .hbm, ⟨50, _⟩ => ⟨S8192, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S1, .f32⟩
  | _, _ => ⟨S8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_call1_v0 : Ref sig .tc := ⟨.hbm, 10, rfl⟩
abbrev main_call1_cst : Ref sig .tc := ⟨.hbm, 11, rfl⟩
abbrev main_call1_v1 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_call2_v0 : Ref sig .tc := ⟨.hbm, 35, rfl⟩
abbrev main_call2_v1 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_cst_5 : Ref sig .tc := ⟨.hbm, 42, rfl⟩
abbrev main_v25 : Ref sig .tc := ⟨.hbm, 43, rfl⟩
abbrev main_v26 : Ref sig .tc := ⟨.hbm, 44, rfl⟩
abbrev main_cst_6 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_7 : Ref sig .tc := ⟨.hbm, 51, rfl⟩
abbrev main_v32 : Ref sig .tc := ⟨.hbm, 52, rfl⟩
abbrev main_cst_8 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩

abbrev nD : Nat := 1
abbrev τ : Topo := Topo.v7x

variable {F : FTy → Type} [FloatOps F]

class Facts₀ : Prop where
  reducesTo_S8192x64_S8192_d1 : S8192x64.ReducesTo [1] S8192
  h_S_ : 0 < S_.numel
  bcast_S_S8192 : S_.BroadcastsInDim S8192 (![] : Fin 0 → Fin S8192.rank)
  transposes_S8192x64_S64x8192_1_0 : S8192x64.Transposes [1, 0] S64x8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  reducesTo_S8192_S_d0 : S8192.ReducesTo [0] S_
  shapeCasts_S_S1 : S_.ShapeCasts S1
  dot_S8192x64_S64x8192_S8192x8192_1_0_0_1_n_n_wf : DotDims.WF S8192x64 S64x8192 S8192x8192 [1] [0] [0] [1] [] []

variable [Facts₀]

def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf

class Facts : Prop extends Facts₀ where

variable [Facts]
-- ==== Proof.Blocks.lean ====
/-
  Where a grid point's blocks sit in their arrays.

  The grid is 8 × 8, walked row-major: point `t` works on block row `t / 8` and block column `t % 8`. The left
  features and the row labels move with the block row, the right features and the column labels with the block
  column; every block is 1024 long on the axis that moves. So local row `p` of point `t` is global row
  `(t / 8) · 1024 + p`, and local column `q` is global column `(t % 8) · 1024 + q`.
-/
import proofs.«418143_j7645041786967_3_alg».proof.Proof.Gen.KernelIdeal.Frame
import Idealize.ShloMosaic.Lib.ValueIdx
import Idealize.ShloMosaic.Lib.Pipeline.Value

noncomputable section

namespace Cert.KernelIdeal.Grid

open Idealize.ShloMosaic Idealize.ShloMosaic.TcCoe Idealize.SL.Sem Idealize.ShloMosaic.ValueIdx
open Cert.KernelIdeal Cert.KernelIdeal.Gen

theorem npts : cfg0.N = 64 := N_0

/-- The global row of local row `p` at point `t`. -/
def rowOf (t : Fin cfg0.N) (p : Fin 1024) : Fin 8192 :=
  ⟨t.val / 8 * 1024 + p.val, by have := t.isLt; have := npts; have := p.isLt; omega⟩

/-- The global column of local column `q` at point `t`. -/
def colOf (t : Fin cfg0.N) (q : Fin 1024) : Fin 8192 :=
  ⟨t.val % 8 * 1024 + q.val, by have := q.isLt; omega⟩

/-- The printed index maps at every grid point: block row `t / 8`, block column `t % 8`. -/
theorem index_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0
    ∧ win0_3.index t (0 : Fin 2) = 0 ∧ win0_3.index t (1 : Fin 2) = t.val % 8
    ∧ win0_4.index t (0 : Fin 2) = t.val / 8 ∧ win0_4.index t (1 : Fin 2) = t.val % 8
    ∧ win0_5.index t (0 : Fin 2) = t.val / 8 ∧ win0_5.index t (1 : Fin 2) = 0
    ∧ win0_6.index t (0 : Fin 2) = t.val / 8 ∧ win0_6.index t (1 : Fin 2) = 0 :=
  (by decide +kernel : ∀ t : Fin grid0.N, _)

variable {F : FTy → Type} [FloatOps F] [Named F]
variable (m : (ℓ : Loc nD τ sig) → Buf (Elt F) ℓ)

/-- The left feature block at point `t`, at its literal shape. -/
abbrev xa (c : Dev nD) (t : Fin cfg0.N) : Vec F S1024x64 .f32 := iblk m c 0 t
/-- The right feature block at point `t`. -/
abbrev xb (c : Dev nD) (t : Fin cfg0.N) : Vec F S1024x64 .f32 := iblk m c 1 t
/-- The row-label block at point `t`. -/
abbrev xr (c : Dev nD) (t : Fin cfg0.N) : Vec F S1024x1 .i32 := iblk m c 2 t
/-- The column-label block at point `t`. -/
abbrev xc (c : Dev nD) (t : Fin cfg0.N) : Vec F S1x1024 .i32 := iblk m c 3 t

/-- The left launch array (its rows already unit-scaled by the host). -/
abbrev arrA (c : Dev nD) : S8192x64.Idx → Elt F .f32 := V m c main_v15
/-- The right launch array. -/
abbrev arrB (c : Dev nD) : S8192x64.Idx → Elt F .f32 := V m c main_v17
/-- The labels as a column. -/
abbrev arrR (c : Dev nD) : S8192x1.Idx → Elt F .i32 := V m c main_v0
/-- The labels as a row. -/
abbrev arrC (c : Dev nD) : S1x8192.Idx → Elt F .i32 := V m c main_v1

/-- The left block at point `t` is rows `(t / 8) · 1024 …` of the left launch array. -/
theorem lhs_blk (c : Dev nD) (t : Fin cfg0.N) (p : Fin 1024) (k : Fin 64) :
    xa m c t (ix2 p k) = arrA m c (ix2 (rowOf t p) k) := by
  obtain ⟨e0, e1, -⟩ := index_facts t
  show (iblk m c _ t) _ = _
  unfold iblk
  rw [View.read_apply]
  show V m c main_v15 _ = V m c main_v15 _
  congr 1
  funext a
  apply Fin.ext
  match a with
  | ⟨0, _⟩ => show win0_0.index t (0 : Fin 2) * 1024 + 1 * p.val = t.val / 8 * 1024 + p.val; rw [e0]; omega
  | ⟨1, _⟩ => show win0_0.index t (1 : Fin 2) * 64 + 1 * k.val = k.val; rw [e1]; omega

/-- The right block at point `t` is rows `(t % 8) · 1024 …` of the right launch array. -/
theorem rhs_blk (c : Dev nD) (t : Fin cfg0.N) (q : Fin 1024) (k : Fin 64) :
    xb m c t (ix2 q k) = arrB m c (ix2 (colOf t q) k) := by
  obtain ⟨-, -, e0, e1, -⟩ := index_facts t
  show (iblk m c _ t) _ = _
  unfold iblk
  rw [View.read_apply]
  show V m c main_v17 _ = V m c main_v17 _
  congr 1
  funext a
  apply Fin.ext
  match a with
  | ⟨0, _⟩ => show win0_1.index t (0 : Fin 2) * 1024 + 1 * q.val = t.val % 8 * 1024 + q.val; rw [e0]; omega
  | ⟨1, _⟩ => show win0_1.index t (1 : Fin 2) * 64 + 1 * k.val = k.val; rw [e1]; omega

/-- The row-label block at point `t` is rows `(t / 8) · 1024 …` of the label column. -/
theorem rowlab_blk (c : Dev nD) (t : Fin cfg0.N) (p : Fin 1024) (z : Fin 1) :
    xr m c t (ix2 p z) = arrR m c (ix2 (rowOf t p) z) := by
  obtain ⟨-, -, -, -, e0, e1, -⟩ := index_facts t
  show (iblk m c _ t) _ = _
  unfold iblk
  rw [View.read_apply]
  show V m c main_v0 _ = V m c main_v0 _
  congr 1
  funext a
  apply Fin.ext
  match a with
  | ⟨0, _⟩ => show win0_2.index t (0 : Fin 2) * 1024 + 1 * p.val = t.val / 8 * 1024 + p.val; rw [e0]; omega
  | ⟨1, _⟩ => show win0_2.index t (1 : Fin 2) * 1 + 1 * z.val = z.val; rw [e1]; omega

/-- The column-label block at point `t` is columns `(t % 8) · 1024 …` of the label row. -/
theorem collab_blk (c : Dev nD) (t : Fin cfg0.N) (z : Fin 1) (q : Fin 1024) :
    xc m c t (ix2 z q) = arrC m c (ix2 z (colOf t q)) := by
  obtain ⟨-, -, -, -, -, -, e0, e1, -⟩ := index_facts t
  show (iblk m c _ t) _ = _
  unfold iblk
  rw [View.read_apply]
  show V m c main_v1 _ = V m c main_v1 _
  congr 1
  funext a
  apply Fin.ext
  match a with
  | ⟨0, _⟩ => show win0_3.index t (0 : Fin 2) * 1 + 1 * z.val = z.val; rw [e0]; omega
  | ⟨1, _⟩ => show win0_3.index t (1 : Fin 2) * 1024 + 1 * q.val = t.val % 8 * 1024 + q.val; rw [e1]; omega

end Cert.KernelIdeal.Grid

end
-- ==== Proof.Pieces.lean ====
/-
  What one run of the body leaves in each output block, as the body's own arithmetic.

  At a first column step the two row-sum blocks are reset to zero and then raised by this step's sums; at a later
  step they are raised over what the step before left. The product block is this step's matrix product either way.
-/
import proofs.«418143_j7645041786967_3_alg».proof.Proof.Gen.KernelIdeal.Frame
import Idealize.ShloMosaic.Lib.Pipeline.Value
import Idealize.ShloMosaic.Lib.Tactic

noncomputable section

namespace Cert.KernelIdeal.Body

open Idealize.ShloMosaic Idealize.ShloMosaic.TcCoe Idealize.SL.Sem
open Cert.KernelIdeal Cert.KernelIdeal.Gen

variable {F : FTy → Type} [FloatOps F] [Named F]

/-- The zero offsets every block access of the body uses, as the constant function. -/
private theorem hz : (![0, 0] : Fin 2 → Nat) = fun _ => 0 := funext fun a => by fin_cases a <;> rfl

/-- First column step: the product block holds the step's matrix product. -/
theorem prod_first (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (hc0 : cond0_0 i)
    (x0 : Vec F S1024x64 .f32) (x1 : Vec F S1024x64 .f32) (x2 : Vec F S1024x1 .i32) (x3 : Vec F S1x1024 .i32) :
    out0_A_4 c i arg2 harg2 arg3 harg3 arg4 harg4 arg5 harg5 arg6 harg6 arg7 harg7 arg8 harg8 hc0 x0 x1 x2 x3 = k0_pay4 x0 x1 := by
  unfold out0_A_4
  rw [View.read_writes_eq_canon _ _ _ (cover0_A_4 c i arg2 harg2 arg3 harg3 arg4 harg4 arg5 harg5 arg6 harg6 arg7 harg7 arg8 harg8 hc0 x0 x1 x2 x3)]
  unfold kernelRun0_A
  dsimp only
  sl_unfold_words
  rw [View.canon_unit_zero hz]
  simp only [View.readAt_eq_ld, harg2.read_unread, harg3.read_unread, View.ld_unit_zero (S := S1024x64) hz]

/-- First column step: the equal-label sums start from the zero block. -/
theorem num_first (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (hc0 : cond0_0 i)
    (x0 : Vec F S1024x64 .f32) (x1 : Vec F S1024x64 .f32) (x2 : Vec F S1024x1 .i32) (x3 : Vec F S1x1024 .i32) :
    out0_A_5 c i arg2 harg2 arg3 harg3 arg4 harg4 arg5 harg5 arg6 harg6 arg7 harg7 arg8 harg8 hc0 x0 x1 x2 x3 = k0_pay6 x0 x1 x2 x3 k0_pay2 := by
  unfold out0_A_5
  rw [View.read_writes_eq_canon _ _ _ (cover0_A_5 c i arg2 harg2 arg3 harg3 arg4 harg4 arg5 harg5 arg6 harg6 arg7 harg7 arg8 harg8 hc0 x0 x1 x2 x3)]
  unfold kernelRun0_A
  dsimp only
  sl_unfold_words
  rw [View.canon_cons_unit_zero (S := S1024x1) hz, View.readCov_unit_zero (S := S1024x1) _ hz]
  simp only [View.readAt_eq_ld, harg2.read_unread, harg3.read_unread, harg4.read_unread, harg5.read_unread,
    View.ld_unit_zero (S := S1024x64) hz, View.ld_unit_zero (S := S1024x1) hz, View.ld_unit_zero (S := S1x1024) hz]

/-- First column step: the all-column sums start from the zero block. -/
theorem den_first (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (hc0 : cond0_0 i)
    (x0 : Vec F S1024x64 .f32) (x1 : Vec F S1024x64 .f32) (x2 : Vec F S1024x1 .i32) (x3 : Vec F S1x1024 .i32) :
    out0_A_6 c i arg2 harg2 arg3 harg3 arg4 harg4 arg5 harg5 arg6 harg6 arg7 harg7 arg8 harg8 hc0 x0 x1 x2 x3 = k0_pay1 (k0_pay7 k0_pay3) (k0_pay8 x0 x1) := by
  unfold out0_A_6
  rw [View.read_writes_eq_canon _ _ _ (cover0_A_6 c i arg2 harg2 arg3 harg3 arg4 harg4 arg5 harg5 arg6 harg6 arg7 harg7 arg8 harg8 hc0 x0 x1 x2 x3)]
  unfold kernelRun0_A
  dsimp only
  sl_unfold_words
  rw [View.canon_cons_unit_zero (S := S1024x1) hz, View.readCov_unit_zero (S := S1024x1) _ hz]
  simp only [View.readAt_eq_ld, harg2.read_unread, harg3.read_unread, View.ld_unit_zero (S := S1024x64) hz]

/-- Later column step: the product block holds the step's matrix product. -/
theorem prod_later (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i)
    (x0 : Vec F S1024x64 .f32) (x1 : Vec F S1024x64 .f32) (x2 : Vec F S1024x1 .i32) (x3 : Vec F S1x1024 .i32)
    (xo5 : Vec F S1024x1 .f32) (xo6 : Vec F S1024x1 .f32) :
    out0_B_4 c i arg2 harg2 arg3 harg3 arg4 harg4 arg5 harg5 arg6 harg6 arg7 harg7 arg8 harg8 hc0 x0 x1 x2 x3 xo5 xo6 = k0_pay4 x0 x1 := by
  unfold out0_B_4
  rw [View.read_writes_eq_canon _ _ _ (cover0_B_4 c i arg2 harg2 arg3 harg3 arg4 harg4 arg5 harg5 arg6 harg6 arg7 harg7 arg8 harg8 hc0 x0 x1 x2 x3 xo5 xo6)]
  unfold kernelRun0_B
  dsimp only
  sl_unfold_words
  rw [View.canon_unit_zero hz]
  simp only [View.readAt_eq_ld, harg2.read_unread, harg3.read_unread, View.ld_unit_zero (S := S1024x64) hz]

/-- Later column step: the equal-label sums are raised over what the step before left. -/
theorem num_later (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i)
    (x0 : Vec F S1024x64 .f32) (x1 : Vec F S1024x64 .f32) (x2 : Vec F S1024x1 .i32) (x3 : Vec F S1x1024 .i32)
    (xo5 : Vec F S1024x1 .f32) (xo6 : Vec F S1024x1 .f32) :
    out0_B_5 c i arg2 harg2 arg3 harg3 arg4 harg4 arg5 harg5 arg6 harg6 arg7 harg7 arg8 harg8 hc0 x0 x1 x2 x3 xo5 xo6 = k0_pay6 x0 x1 x2 x3 xo5 := by
  unfold out0_B_5
  rw [View.read_writes_eq_canon _ _ _ (cover0_B_5 c i arg2 harg2 arg3 harg3 arg4 harg4 arg5 harg5 arg6 harg6 arg7 harg7 arg8 harg8 hc0 x0 x1 x2 x3 xo5 xo6)]
  unfold kernelRun0_B
  dsimp only
  sl_unfold_words
  rw [View.canon_unit_zero hz]
  simp only [View.readAt_eq_ld, harg2.read_unread, harg3.read_unread, harg4.read_unread, harg5.read_unread, harg7.read_unread,
    View.ld_unit_zero (S := S1024x64) hz, View.ld_unit_zero (S := S1024x1) hz, View.ld_unit_zero (S := S1x1024) hz]

/-- Later column step: the all-column sums are raised over what the step before left. -/
theorem den_later (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i)
    (x0 : Vec F S1024x64 .f32) (x1 : Vec F S1024x64 .f32) (x2 : Vec F S1024x1 .i32) (x3 : Vec F S1x1024 .i32)
    (xo5 : Vec F S1024x1 .f32) (xo6 : Vec F S1024x1 .f32) :
    out0_B_6 c i arg2 harg2 arg3 harg3 arg4 harg4 arg5 harg5 arg6 harg6 arg7 harg7 arg8 harg8 hc0 x0 x1 x2 x3 xo5 xo6 = k0_pay1 (k0_pay7 xo6) (k0_pay8 x0 x1) := by
  unfold out0_B_6
  rw [View.read_writes_eq_canon _ _ _ (cover0_B_6 c i arg2 harg2 arg3 harg3 arg4 harg4 arg5 harg5 arg6 harg6 arg7 harg7 arg8 harg8 hc0 x0 x1 x2 x3 xo5 xo6)]
  unfold kernelRun0_B
  dsimp only
  sl_unfold_words
  rw [View.canon_unit_zero hz]
  simp only [View.readAt_eq_ld, harg2.read_unread, harg3.read_unread, harg8.read_unread,
    View.ld_unit_zero (S := S1024x64) hz, View.ld_unit_zero (S := S1024x1) hz]

end Cert.KernelIdeal.Body

end
-- ==== Proof.Spec.lean ====
/-
  The contrastive loss both programs compute, written once over the extended reals.

  Inputs: labels `lab : [8192]` (32-bit words), features `a b : [8192, 64]`.
  With `‖x‖ᵢ = max (√(∑ₖ xᵢₖ²)) ε` the clamped row norm:
    * the cosine matrix, in the two arrangements the programs use:
        `cosR a b i j = (∑ₖ aᵢₖ bⱼₖ) / (‖a‖ᵢ ‖b‖ⱼ)`               (one quotient of the whole product)
        `cosK a b i j = ∑ₖ (aᵢₖ · 1/‖a‖ᵢ) (bⱼₖ · 1/‖b‖ⱼ)`        (rows scaled first);
    * the exponentials `exp (cos / T)` and `exp (cos · (1/T))`, with `T` the temperature's exact value;
    * per row, the sum of the exponentials over equal labels and over all columns;
    * the loss, `-(1/8192) ∑ᵢ log (numᵢ' / denᵢ)` with `numᵢ' = numᵢ + 0.01` where `numᵢ = 0`.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

abbrev S_ : Shape := ⟨0, ![]⟩
abbrev S1 : Shape := ⟨1, ![1]⟩
abbrev S8192 : Shape := ⟨1, ![8192]⟩
abbrev S8192x64 : Shape := ⟨2, ![8192, 64]⟩
abbrev S8192x8192 : Shape := ⟨2, ![8192, 8192]⟩

/-- A feature matrix over the extended reals. -/
abbrev Mat := S8192x64.Idx → EReal
/-- The label vector. -/
abbrev Lab := S8192.Idx → BitVec 32

/-- `ε`, the floor under a row norm (the word both programs spell). -/
def eps : EReal := Ideal.ofBits .f32 0x322BCC77#32

/-- `T`, the temperature the reference divides by (its word's exact value, `9395241 / 2^27`). -/
def temp : EReal := Ideal.ofBits .f32 0x3D8F5C29#32

/-- `1 / T` as an exact rational: the value the kernel's scale constant is named. -/
def invTemp : EReal := ((134217728 / 9395241 : ℝ) : EReal)

/-- Row `i`'s clamped Euclidean norm `max (√(∑ₖ xᵢₖ²)) ε`. -/
def nrm (x : Mat) (i : Fin 8192) : EReal :=
  max (Ideal.sqrt (∑ k : Fin 64, x (ix2 i k) * x (ix2 i k))) eps

/-- The matrix with every row scaled by the reciprocal of its clamped norm. -/
def unit (x : Mat) : Mat := fun idx => x idx * Ideal.div 1 (nrm x (idx 0))

/-- The cosine of row `i` of `a` and row `j` of `b`: the product's entry over the product of the norms. -/
def cosR (a b : Mat) (i j : Fin 8192) : EReal :=
  Ideal.div (∑ k : Fin 64, a (ix2 i k) * b (ix2 j k)) (nrm a i * nrm b j)

/-- The same cosine with the rows scaled before the product. -/
def cosK (a b : Mat) (i j : Fin 8192) : EReal :=
  ∑ k : Fin 64, unit a (ix2 i k) * unit b (ix2 j k)

/-- `exp (cos / T)`. -/
def eR (a b : Mat) (i j : Fin 8192) : EReal := Ideal.exp (Ideal.div (cosR a b i j) temp)

/-- `exp (cos · (1/T))`. -/
def eK (a b : Mat) (i j : Fin 8192) : EReal := Ideal.exp (cosK a b i j * invTemp)

/-- Whether rows `i` and `j` carry the same label, as the one-bit word a comparison yields. -/
def same (lab : Lab) (i j : Fin 8192) : BitVec 1 := IntOp.cmpi .eq (lab (ix1 i)) (lab (ix1 j))

/-- Row `i`'s sum of `e i j` over the columns `j` with the same label. -/
def numOf (e : Fin 8192 → Fin 8192 → EReal) (lab : Lab) (i : Fin 8192) : EReal :=
  ∑ j : Fin 8192, Scalar.select (same lab i j) (e i j) 0

/-- Row `i`'s sum of `e i j` over all columns. -/
def denOf (e : Fin 8192 → Fin 8192 → EReal) (i : Fin 8192) : EReal := ∑ j : Fin 8192, e i j

/-- The loss from the two row sums, as both programs' last host operations spell it: the numerator raised by `0.01`
    where it is zero, the quotient's logarithm summed over the rows, divided by `8192`, negated, as a one-element
    vector. Generic in the float instance; the shape facts are arguments so that either program's own witnesses fit. -/
def lossOf {F : FTy → Type} [FloatOps F] (hb : S_.BroadcastsInDim S8192 (![] : Fin 0 → Fin S8192.rank))
    (hr : S8192.ReducesTo [0] S_) (hn : 0 < S_.numel) (hc : S_.ShapeCasts S1) (num den : FVec F S8192 .f32) : FVec F S1 .f32 :=
  shapeCast S1 (Host.negf (Host.divf
    (Host.reduceAdd (Host.log (Host.divf
      (select (cmpf .oeq num (broadcastInDim S8192 ![] hb (constant S_ .f32 0x00000000#32)))
        (addf num (broadcastInDim S8192 ![] hb (constant S_ .f32 0x3C23D70A#32))) num) den))
      (constant S_ .f32 0x00000000#32) hr hn)
    (constant S_ .f32 0x46000000#32))) hc

end Cert.Spec

end
-- ==== Proof.Payloads.lean ====
/-
  The body's arithmetic read entry by entry over the extended reals.

  For row blocks `x0` (1024 rows of the scaled left features) and `x1` (1024 rows of the scaled right features):
  the product block's entry `(p, q)` is `∑ₖ x0ₚₖ x1_qₖ`; the exponential block's is `exp` of that times `1/T`;
  a row-sum block's entry `p` is what it held plus the row's sum over the 1024 columns of the step.
-/
import proofs.«418143_j7645041786967_3_alg».proof.Proof.Gen.KernelIdeal.Skeleton
import proofs.«418143_j7645041786967_3_alg».proof.Proof.Spec
import Idealize.ShloMosaic.PureOps.IdealRules
import Idealize.ShloMosaic.Lib.ValueIdx
import Idealize.ShloMosaic.Lib.Pipeline.Value
import Idealize.ShloMosaic.PureOps.Ideal.Laws

noncomputable section

namespace Cert.KernelIdeal.Body

open Idealize.ShloMosaic Idealize.ShloMosaic.ValueIdx
open Cert.KernelIdeal Cert.KernelIdeal.Gen

variable (x0 x1 : Vec Ideal S1024x64 .f32) (x2 : Vec Ideal S1024x1 .i32) (x3 : Vec Ideal S1x1024 .i32)
  (acc : Vec Ideal S1024x1 .f32)

/-- The scale constant's name denotes the exact reciprocal of the temperature. -/
theorem scale_eq : Named.named (F := Ideal) κ "inv_temp" (φ := .f32) 0x41649249#32 = Cert.Spec.invTemp :=
  IdealRules.named_const.ideal_named_scalar _ _ _ _ rfl

/-- The left operand's row coordinate is the output's row. -/
private theorem lhs_prod_0 (i : S1024x1024.Idx) (c : dot_S1024x64_S1024x64_S1024x1024_1_1_0_0_n_n.contr.Idx) :
    (dot_S1024x64_S1024x64_S1024x1024_1_1_0_0_n_n.lhsIdx i c 0).val = (i 0).val := by
  unfold DotDims.lhsIdx
  rw [dif_neg (show ¬(0 : Fin S1024x64.rank) ∈ dot_S1024x64_S1024x64_S1024x1024_1_1_0_0_n_n.lhsBatch by decide), dif_pos (show (0 : Fin S1024x64.rank) ∈ dot_S1024x64_S1024x64_S1024x1024_1_1_0_0_n_n.lhsNonContracting by decide)]
  rfl
/-- The left operand's column coordinate is the contraction's. -/
private theorem lhs_prod_1 (i : S1024x1024.Idx) (c : dot_S1024x64_S1024x64_S1024x1024_1_1_0_0_n_n.contr.Idx) :
    (dot_S1024x64_S1024x64_S1024x1024_1_1_0_0_n_n.lhsIdx i c 1).val = (c ⟨0, by decide⟩).val :=
  dot_S1024x64_S1024x64_S1024x1024_1_1_0_0_n_n.lhsIdx_val_of_single rfl i c
/-- The right operand's row coordinate is the output's column. -/
private theorem rhs_prod_0 (i : S1024x1024.Idx) (c : dot_S1024x64_S1024x64_S1024x1024_1_1_0_0_n_n.contr.Idx) :
    (dot_S1024x64_S1024x64_S1024x1024_1_1_0_0_n_n.rhsIdx i c 0).val = (i 1).val := by
  unfold DotDims.rhsIdx
  rw [dif_neg (show ¬(0 : Fin S1024x64.rank) ∈ dot_S1024x64_S1024x64_S1024x1024_1_1_0_0_n_n.rhsBatch by decide), dif_pos (show (0 : Fin S1024x64.rank) ∈ dot_S1024x64_S1024x64_S1024x1024_1_1_0_0_n_n.rhsNonContracting by decide)]
  rfl
/-- The right operand's column coordinate is the contraction's. -/
private theorem rhs_prod_1 (i : S1024x1024.Idx) (c : dot_S1024x64_S1024x64_S1024x1024_1_1_0_0_n_n.contr.Idx) :
    (dot_S1024x64_S1024x64_S1024x1024_1_1_0_0_n_n.rhsIdx i c 1).val = (c ⟨0, by decide⟩).val :=
  dot_S1024x64_S1024x64_S1024x1024_1_1_0_0_n_n.rhsIdx_val_of_single rfl i c

/-- The product block: entry `(p, q)` is the inner product of row `p` of `x0` and row `q` of `x1`. -/
theorem prod_apply (p q : Fin 1024) :
    k0_pay4 (F := Ideal) x0 x1 (ix2 p q) = ∑ k : Fin 64, x0 (ix2 p k) * x1 (ix2 q k) := by
  unfold k0_pay4
  refine (Ideal.matmul_constant_zero_apply dot_S1024x64_S1024x64_S1024x1024_1_1_0_0_n_n none _ _ (ix2 p q)).trans ?_
  rw [← Equiv.sum_comp (contrEquiv1 dot_S1024x64_S1024x64_S1024x1024_1_1_0_0_n_n 64 rfl rfl).symm]
  refine Finset.sum_congr rfl fun k _ => ?_
  have hk := contrEquiv1_symm_val dot_S1024x64_S1024x64_S1024x1024_1_1_0_0_n_n 64 rfl rfl k
  have el : dot_S1024x64_S1024x64_S1024x1024_1_1_0_0_n_n.lhsIdx (ix2 p q) ((contrEquiv1 dot_S1024x64_S1024x64_S1024x1024_1_1_0_0_n_n 64 rfl rfl).symm k) = ix2 p k := funext fun a => Fin.ext (by
    match a with
    | ⟨0, _⟩ => exact lhs_prod_0 _ _
    | ⟨1, _⟩ => exact (lhs_prod_1 _ _).trans hk)
  have er : dot_S1024x64_S1024x64_S1024x1024_1_1_0_0_n_n.rhsIdx (ix2 p q) ((contrEquiv1 dot_S1024x64_S1024x64_S1024x1024_1_1_0_0_n_n 64 rfl rfl).symm k) = ix2 q k := funext fun a => Fin.ext (by
    match a with
    | ⟨0, _⟩ => exact rhs_prod_0 _ _
    | ⟨1, _⟩ => exact (rhs_prod_1 _ _).trans hk)
  rw [el, er]
  simp only [truncf_apply, shapeCast_self]

/-- The exponential block: `exp` of the product entry times `1/T`. -/
theorem expo_apply (p q : Fin 1024) :
    k0_pay5 (F := Ideal) x0 x1 (ix2 p q) = Ideal.exp ((∑ k : Fin 64, x0 (ix2 p k) * x1 (ix2 q k)) * Cert.Spec.invTemp) := by
  unfold k0_pay5
  show Ideal.exp (k0_pay4 (F := Ideal) x0 x1 (ix2 p q) * Named.named (F := Ideal) κ "inv_temp" (φ := .f32) 0x41649249#32) = _
  rw [prod_apply, scale_eq]

/-- A vector set as a column, read at `(p, z)`, is the vector at `p`. -/
private theorem col_apply {α : Type} (v : S1024.Idx → α) (p : Fin 1024) (z : Fin 1) :
    shapeCast S1024x1 v shapeCasts_S1024_S1024x1 (ix2 p z) = v (ix1 p) := by
  refine shapeCast_apply v shapeCasts_S1024_S1024x1 (ix2 p z) (ix1 p) ?_
  rw [Shape.rowMajor_val_one, Shape.rowMajor_val_two]
  have hz := z.isLt
  show p.val = p.val * 1 + z.val
  omega

/-- A column spread over the square, read at `(p, q)`, is the column at row `p`. -/
private theorem spreadCol_apply {α : Type} (v : S1024x1.Idx → α) (p q : Fin 1024) :
    broadcastTo S1024x1024 v broadcasts_S1024x1_S1024x1024 (ix2 p q) = v (ix2 p (0 : Fin 1)) := by
  refine broadcastTo_apply v broadcasts_S1024x1_S1024x1024 (ix2 p q) (ix2 p (0 : Fin 1)) fun a => ?_
  match a with
  | ⟨0, _⟩ => show p.val = if (1024 : Nat) = 1 then 0 else p.val; rw [if_neg (by decide)]
  | ⟨1, _⟩ => show 0 = if (1 : Nat) = 1 then 0 else q.val; rw [if_pos rfl]

/-- A row spread over the square, read at `(p, q)`, is the row at column `q`. -/
private theorem spreadRow_apply {α : Type} (v : S1x1024.Idx → α) (p q : Fin 1024) :
    broadcastTo S1024x1024 v broadcasts_S1x1024_S1024x1024 (ix2 p q) = v (ix2 (0 : Fin 1) q) := by
  refine broadcastTo_apply v broadcasts_S1x1024_S1024x1024 (ix2 p q) (ix2 (0 : Fin 1) q) fun a => ?_
  match a with
  | ⟨0, _⟩ => show 0 = if (1 : Nat) = 1 then 0 else p.val; rw [if_pos rfl]
  | ⟨1, _⟩ => show q.val = if (1024 : Nat) = 1 then 0 else q.val; rw [if_neg (by decide)]

/-- The sum over the columns of a square block, read at row `p`. -/
private theorem rowSum_apply (v : FVec Ideal S1024x1024 .f32) (p : Fin 1024) :
    multiReduction (F := Ideal) .add [1] S1024 v 0x00000000#32 reduces_S1024x1024_S1024 (.inl rfl) rfl (ix1 p)
      = ∑ q : Fin 1024, v (ix2 p q) := by
  refine (Ideal.multiReduction_add_single v _ reduces_S1024x1024_S1024 (.inl rfl) rfl (ix1 p)).trans ?_
  refine Finset.sum_congr rfl fun q _ => congrArg v (funext fun a => Fin.ext ?_)
  match a with
  | ⟨0, _⟩ => rfl
  | ⟨1, _⟩ => rfl

/-- The equal-label row sums: what the block held plus the row's sum of the exponentials at equal labels. -/
theorem num_apply (p : Fin 1024) (z : Fin 1) :
    k0_pay6 (F := Ideal) x0 x1 x2 x3 acc (ix2 p z)
      = acc (ix2 p z) + ∑ q : Fin 1024,
          Scalar.select (IntOp.cmpi .eq (x2 (ix2 p (0 : Fin 1))) (x3 (ix2 (0 : Fin 1) q))) (k0_pay5 (F := Ideal) x0 x1 (ix2 p q)) 0 := by
  unfold k0_pay6
  dsimp only
  refine (addf_apply _ _ _).trans ?_
  refine congrArg₂ (· + ·) (congrFun (shapeCast_self acc _) _) (((col_apply _ p z).trans (rowSum_apply _ p)).trans ?_)
  refine Finset.sum_congr rfl fun q _ => ?_
  refine (select_apply _ _ _ _).trans ?_
  show Scalar.select (IntOp.cmpi .eq
      (broadcastTo S1024x1024 (shapeCast S1024x1 x2 shapeCasts_S1024x1_S1024x1) broadcasts_S1024x1_S1024x1024 (ix2 p q))
      (broadcastTo S1024x1024 (shapeCast S1x1024 x3 shapeCasts_S1x1024_S1x1024) broadcasts_S1x1024_S1024x1024 (ix2 p q)))
    (k0_pay5 (F := Ideal) x0 x1 (ix2 p q)) (Ideal.ofBits .f32 0x00000000#32) = _
  rw [spreadCol_apply, spreadRow_apply, shapeCast_self, shapeCast_self, Ideal.ofBits_zero_f32]

/-- The all-column row sums: what the block held plus the row's sum of the exponentials. -/
theorem den_apply (p : Fin 1024) (z : Fin 1) :
    k0_pay1 (F := Ideal) (k0_pay7 acc) (k0_pay8 x0 x1) (ix2 p z)
      = acc (ix2 p z) + ∑ q : Fin 1024, k0_pay5 (F := Ideal) x0 x1 (ix2 p q) := by
  unfold k0_pay1 k0_pay7 k0_pay8
  dsimp only
  refine (addf_apply _ _ _).trans ?_
  exact congrArg₂ (· + ·) (congrFun (shapeCast_self acc _) _) ((col_apply _ p z).trans (rowSum_apply _ p))

/-- The reset block of the equal-label sums is zero. -/
theorem zero_num (p : Fin 1024) (z : Fin 1) : k0_pay2 (F := Ideal) (ix2 p z) = 0 := by
  unfold k0_pay2
  exact Ideal.ofBits_zero_f32

/-- The reset block of the all-column sums is zero. -/
theorem zero_den (p : Fin 1024) (z : Fin 1) : k0_pay3 (F := Ideal) (ix2 p z) = 0 := by
  unfold k0_pay3
  exact Ideal.ofBits_zero_f32

end Cert.KernelIdeal.Body

end
-- ==== Proof.Inputs.lean ====
/-
  The arrays the region is launched on, read entry by entry: the scaled features and the two label layouts.

  Before the region the host scales every feature row by the reciprocal of its clamped norm and lays the labels out
  as a column and as a row.
-/
import proofs.«418143_j7645041786967_3_alg».proof.Proof.Gen.KernelIdeal.Frame
import proofs.«418143_j7645041786967_3_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.Lib.IdealHost
import Idealize.ShloMosaic.PureOps.Ideal.Laws

noncomputable section

namespace Cert.KernelIdeal.HostIn

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- The host's scaling of a feature matrix, as one term: the matrix times the broadcast column of reciprocals of the
    clamped row norms. -/
private def scaled (x : FVec Ideal S8192x64 .f32) : FVec Ideal S8192x64 .f32 :=
  mulf x (broadcastInDim S8192x64 ![0, 1] bcast_S8192x1_S8192x64_0_1
    (shapeCast S8192x1
      (Host.divf (broadcastInDim S8192 ![] bcast_S_S8192 (constant (F := Ideal) S_ .f32 0x3F800000#32))
        (maximumf (Host.sqrt (Host.reduceAdd (mulf x x) (constant (F := Ideal) S_ .f32 0x00000000#32) reducesTo_S8192x64_S8192_d1 h_S_))
          (broadcastInDim S8192 ![] bcast_S_S8192 (constant (F := Ideal) S_ .f32 0x322BCC77#32))))
      shapeCasts_S8192_S8192x1))

/-- Read at an entry, the host's scaling is the specification's: the entry times the reciprocal of its row's clamped
    norm. -/
private theorem scaled_apply (x : FVec Ideal S8192x64 .f32) (i : Fin 8192) (k : Fin 64) :
    scaled x (ix2 i k) = Cert.Spec.unit x (ix2 i k) := by
  unfold scaled
  rw [mulf_apply]
  show _ = x (ix2 i k) * Ideal.div 1 (Cert.Spec.nrm x i)
  refine congrArg (x (ix2 i k) * ·) ?_
  rw [broadcastInDim_apply _ _ _ (ix2 i k) (ix2 i (0 : Fin 1)) (fun a => by match a with | ⟨0, _⟩ => rfl | ⟨1, _⟩ => rfl)]
  rw [shapeCast_apply _ _ (ix2 i (0 : Fin 1)) (ix1 i) (by rw [Shape.rowMajor_val_one, Shape.rowMajor_val_two]; show i.val = i.val * 1 + 0; omega)]
  rw [hostDivf_apply, broadcastInDim_scalar_apply, constant_apply, Ideal.ofBits_one_f32, maximumf_apply, broadcastInDim_scalar_apply, constant_apply]
  unfold Cert.Spec.nrm Cert.Spec.eps
  refine congrArg (fun t => Ideal.div 1 (max (Ideal.sqrt t) _)) ?_
  rw [hostReduceAdd_apply, Ideal.hostReduceAdd_single reducesTo_S8192x64_S8192_d1 (by decide), constant_apply, Ideal.ofBits_zero_f32, zero_add]
  refine Finset.sum_congr rfl fun k' _ => ?_
  rw [mulf_apply]
  exact congrArg (fun j => x j * x j) (funext fun a => Fin.ext (by match a with | ⟨0, _⟩ => rfl | ⟨1, _⟩ => rfl))

/-- The left operand of the region: the first feature matrix with unit-scaled rows. -/
theorem lhs_apply (c : Dev nD) (i : Fin 8192) (k : Fin 64) :
    (V m c main_v15 : S8192x64.Idx → EReal) (ix2 i k) = Cert.Spec.unit (m ((c : Thread nD τ).loc main_arg1)) (ix2 i k) := by
  have e : (V m c main_v15 : S8192x64.Idx → EReal) = scaled (m ((c : Thread nD τ).loc main_arg1)) := by
    dsimp only [Gen.V, Gen.V0]
    simp only [Gen.hostOps0, Gen.hostOps0_1, Gen.hostOps0_2, Gen.hostOps0_3, List.flatten_cons, List.flatten_nil,
      List.append_nil, List.cons_append, List.nil_append]
    after_results
    rfl
  exact (congrFun e (ix2 i k)).trans (scaled_apply _ i k)

/-- The right operand of the region: the second feature matrix with unit-scaled rows. -/
theorem rhs_apply (c : Dev nD) (j : Fin 8192) (k : Fin 64) :
    (V m c main_v17 : S8192x64.Idx → EReal) (ix2 j k) = Cert.Spec.unit (m ((c : Thread nD τ).loc main_arg2)) (ix2 j k) := by
  have e : (V m c main_v17 : S8192x64.Idx → EReal) = scaled (m ((c : Thread nD τ).loc main_arg2)) := by
    dsimp only [Gen.V, Gen.V0]
    simp only [Gen.hostOps0, Gen.hostOps0_1, Gen.hostOps0_2, Gen.hostOps0_3, List.flatten_cons, List.flatten_nil,
      List.append_nil, List.cons_append, List.nil_append]
    after_results
    rfl
  exact (congrFun e (ix2 j k)).trans (scaled_apply _ j k)

/-- The labels as a column. -/
theorem rowlab_apply (c : Dev nD) (i : Fin 8192) (z : Fin 1) :
    (V m c main_v0 : S8192x1.Idx → BitVec 32) (ix2 i z) = m ((c : Thread nD τ).loc main_arg0) (ix1 i) := by
  have e : (V m c main_v0 : S8192x1.Idx → BitVec 32)
      = shapeCast S8192x1 (m ((c : Thread nD τ).loc main_arg0)) shapeCasts_S8192_S8192x1 := by
    dsimp only [Gen.V, Gen.V0]
    simp only [Gen.hostOps0, Gen.hostOps0_1, Gen.hostOps0_2, Gen.hostOps0_3, List.flatten_cons, List.flatten_nil,
      List.append_nil, List.cons_append, List.nil_append]
    after_results
    rfl
  refine (congrFun e (ix2 i z)).trans ?_
  refine shapeCast_apply _ _ (ix2 i z) (ix1 i) ?_
  have hz : z.val = 0 := by omega
  rw [Shape.rowMajor_val_one, Shape.rowMajor_val_two]
  show i.val = i.val * 1 + z.val
  omega

/-- The labels as a row. -/
theorem collab_apply (c : Dev nD) (z : Fin 1) (j : Fin 8192) :
    (V m c main_v1 : S1x8192.Idx → BitVec 32) (ix2 z j) = m ((c : Thread nD τ).loc main_arg0) (ix1 j) := by
  have e : (V m c main_v1 : S1x8192.Idx → BitVec 32)
      = shapeCast S1x8192 (m ((c : Thread nD τ).loc main_arg0)) shapeCasts_S8192_S1x8192 := by
    dsimp only [Gen.V, Gen.V0]
    simp only [Gen.hostOps0, Gen.hostOps0_1, Gen.hostOps0_2, Gen.hostOps0_3, List.flatten_cons, List.flatten_nil,
      List.append_nil, List.cons_append, List.nil_append]
    after_results
    rfl
  exact (congrFun e (ix2 z j)).trans (shapeCast_a_1a_apply _ _ z j)

end Cert.KernelIdeal.HostIn

end
-- ==== Proof.Accum.lean ====
/-
  What the three output blocks hold after each grid point, as sums over the columns seen so far.

  Write `A`, `B` for the feature matrices with unit-scaled rows and `e i j = exp (cos i j · (1/T))`. At point `t`
  (block row `t / 8`, block column `t % 8`):
    * the product block's entry `(p, q)` is the cosine of global row `rowOf t p` and global column `colOf t q`;
    * a row-sum block's entry `p` is the sum, over the column blocks `0 … t % 8` of this block row, of that row's
      terms: reset at block column 0, raised by one column block per point, by induction on the point.
-/
import proofs.«418143_j7645041786967_3_alg».proof.Proof.Blocks
import proofs.«418143_j7645041786967_3_alg».proof.Proof.Pieces
import proofs.«418143_j7645041786967_3_alg».proof.Proof.Payloads
import proofs.«418143_j7645041786967_3_alg».proof.Proof.Inputs

noncomputable section

namespace Cert.KernelIdeal.Acc

open Idealize.ShloMosaic Idealize.ShloMosaic.TcCoe Idealize.SL.Sem Idealize.ShloMosaic.ValueIdx
open Cert.KernelIdeal Cert.KernelIdeal.Gen Cert.KernelIdeal.Grid

variable (m : (ℓ : Loc nD τ sig) → Buf (Elt Ideal) ℓ)

/-- The first feature matrix. -/
abbrev feaA (c : Dev nD) : Cert.Spec.Mat := m ((c : Thread nD τ).loc main_arg1)
/-- The second feature matrix. -/
abbrev feaB (c : Dev nD) : Cert.Spec.Mat := m ((c : Thread nD τ).loc main_arg2)
/-- The labels. -/
abbrev labs (c : Dev nD) : Cert.Spec.Lab := m ((c : Thread nD τ).loc main_arg0)

/-- Row `i`'s term at column `j` of the equal-label sum. -/
def gNum (c : Dev nD) (i j : Fin 8192) : EReal :=
  Scalar.select (Cert.Spec.same (labs m c) i j) (Cert.Spec.eK (feaA m c) (feaB m c) i j) 0

/-- Row `i`'s term at column `j` of the all-column sum. -/
def gDen (c : Dev nD) (i j : Fin 8192) : EReal := Cert.Spec.eK (feaA m c) (feaB m c) i j

/-- The inner product of two block rows is the scaled-rows cosine of their global rows. -/
theorem dot_blk (c : Dev nD) (t : Fin cfg0.N) (p q : Fin 1024) :
    ∑ k : Fin 64, xa m c t (ix2 p k) * xb m c t (ix2 q k)
      = Cert.Spec.cosK (feaA m c) (feaB m c) (rowOf t p) (colOf t q) := by
  unfold Cert.Spec.cosK
  refine Finset.sum_congr rfl fun k _ => ?_
  have ha : xa m c t (ix2 p k) = Cert.Spec.unit (feaA m c) (ix2 (rowOf t p) k) :=
    (lhs_blk m c t p k).trans (HostIn.lhs_apply m c (rowOf t p) k)
  have hb : xb m c t (ix2 q k) = Cert.Spec.unit (feaB m c) (ix2 (colOf t q) k) :=
    (rhs_blk m c t q k).trans (HostIn.rhs_apply m c (colOf t q) k)
  rw [ha, hb]

/-- The exponential block's entry is `e` at the global row and column. -/
theorem expo_blk (c : Dev nD) (t : Fin cfg0.N) (p q : Fin 1024) :
    k0_pay5 (F := Ideal) (xa m c t) (xb m c t) (ix2 p q) = gDen m c (rowOf t p) (colOf t q) := by
  refine (Body.expo_apply (xa m c t) (xb m c t) p q).trans ?_
  rw [dot_blk m c t p q]
  rfl

/-- One point's contribution to a row's equal-label sum: the row's terms over the point's 1024 columns. -/
theorem num_step (c : Dev nD) (t : Fin cfg0.N) (p : Fin 1024) :
    ∑ q : Fin 1024, Scalar.select (IntOp.cmpi .eq (xr m c t (ix2 p (0 : Fin 1))) (xc m c t (ix2 (0 : Fin 1) q)))
        (k0_pay5 (F := Ideal) (xa m c t) (xb m c t) (ix2 p q)) 0
      = ∑ q : Fin 1024, gNum m c (rowOf t p) (colOf t q) := by
  refine Finset.sum_congr rfl fun q _ => ?_
  have hr : xr m c t (ix2 p (0 : Fin 1)) = labs m c (ix1 (rowOf t p)) :=
    (rowlab_blk m c t p 0).trans (HostIn.rowlab_apply m c (rowOf t p) 0)
  have hc : xc m c t (ix2 (0 : Fin 1) q) = labs m c (ix1 (colOf t q)) :=
    (collab_blk m c t 0 q).trans (HostIn.collab_apply m c 0 (colOf t q))
  rw [hr, hc, expo_blk m c t p q]
  rfl

/-- One point's contribution to a row's all-column sum. -/
theorem den_step (c : Dev nD) (t : Fin cfg0.N) (p : Fin 1024) :
    ∑ q : Fin 1024, k0_pay5 (F := Ideal) (xa m c t) (xb m c t) (ix2 p q)
      = ∑ q : Fin 1024, gDen m c (rowOf t p) (colOf t q) :=
  Finset.sum_congr rfl fun q _ => expo_blk m c t p q

/-! ## One grid point -/

/-- The product block after point `t`: the cosines of the point's rows and columns. -/
theorem prod_at (c : Dev nD) (t : Fin cfg0.N) (p q : Fin 1024) :
    (outsAt0 m c t.val t.isLt).1 (ix2 p q) = Cert.Spec.cosK (feaA m c) (feaB m c) (rowOf t p) (colOf t q) := by
  by_cases h0 : t.val % 8 = 0
  · rw [outsAt0_A m c t h0]
    dsimp only
    refine (congrFun (Body.prod_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t) (iblk m c 3 t)) (ix2 p q)).trans ?_
    exact (Body.prod_apply (xa m c t) (xb m c t) p q).trans (dot_blk m c t p q)
  · rw [outsAt0_B m c t h0]
    dsimp only
    refine (congrFun (Body.prod_later (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2) (ix2 p q)).trans ?_
    exact (Body.prod_apply (xa m c t) (xb m c t) p q).trans (dot_blk m c t p q)

/-- At a first block column the equal-label sums are this point's contribution. -/
theorem num_at_first (c : Dev nD) (t : Fin cfg0.N) (h0 : t.val % 8 = 0) (p : Fin 1024) (z : Fin 1) :
    (outsAt0 m c t.val t.isLt).2.1 (ix2 p z) = ∑ q : Fin 1024, gNum m c (rowOf t p) (colOf t q) := by
  rw [outsAt0_A m c t h0]
  dsimp only
  refine (congrFun (Body.num_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t) (iblk m c 3 t)) (ix2 p z)).trans ?_
  refine (Body.num_apply (xa m c t) (xb m c t) (xr m c t) (xc m c t) (k0_pay2 (F := Ideal)) p z).trans ?_
  rw [Body.zero_num p z, zero_add]
  exact num_step m c t p

/-- At a first block column the all-column sums are this point's contribution. -/
theorem den_at_first (c : Dev nD) (t : Fin cfg0.N) (h0 : t.val % 8 = 0) (p : Fin 1024) (z : Fin 1) :
    (outsAt0 m c t.val t.isLt).2.2 (ix2 p z) = ∑ q : Fin 1024, gDen m c (rowOf t p) (colOf t q) := by
  rw [outsAt0_A m c t h0]
  dsimp only
  refine (congrFun (Body.den_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t) (iblk m c 3 t)) (ix2 p z)).trans ?_
  refine (Body.den_apply (xa m c t) (xb m c t) (k0_pay3 (F := Ideal)) p z).trans ?_
  rw [Body.zero_den p z, zero_add]
  exact den_step m c t p

/-- At a later block column the equal-label sums are the point before's plus this point's contribution. -/
theorem num_at_later (c : Dev nD) (t : Fin cfg0.N) (h0 : ¬t.val % 8 = 0) (p : Fin 1024) (z : Fin 1) :
    (outsAt0 m c t.val t.isLt).2.1 (ix2 p z)
      = (outsAt0 m c (t.val - 1) (Nat.lt_of_le_of_lt (Nat.sub_le _ _) t.isLt)).2.1 (ix2 p z) + ∑ q : Fin 1024, gNum m c (rowOf t p) (colOf t q) := by
  rw [outsAt0_B m c t h0]
  dsimp only
  refine (congrFun (Body.num_later (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2) (ix2 p z)).trans ?_
  refine (Body.num_apply (xa m c t) (xb m c t) (xr m c t) (xc m c t) (outsAt0 m c (t.val - 1) (Nat.lt_of_le_of_lt (Nat.sub_le _ _) t.isLt)).2.1 p z).trans ?_
  rw [num_step m c t p]

/-- At a later block column the all-column sums are the point before's plus this point's contribution. -/
theorem den_at_later (c : Dev nD) (t : Fin cfg0.N) (h0 : ¬t.val % 8 = 0) (p : Fin 1024) (z : Fin 1) :
    (outsAt0 m c t.val t.isLt).2.2 (ix2 p z)
      = (outsAt0 m c (t.val - 1) (Nat.lt_of_le_of_lt (Nat.sub_le _ _) t.isLt)).2.2 (ix2 p z) + ∑ q : Fin 1024, gDen m c (rowOf t p) (colOf t q) := by
  rw [outsAt0_B m c t h0]
  dsimp only
  refine (congrFun (Body.den_later (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2) (ix2 p z)).trans ?_
  refine (Body.den_apply (xa m c t) (xb m c t) (outsAt0 m c (t.val - 1) (Nat.lt_of_le_of_lt (Nat.sub_le _ _) t.isLt)).2.2 p z).trans ?_
  rw [den_step m c t p]

/-! ## All grid points: the carried blocks are partial sums over column blocks -/

/-- A row's terms summed over column block `b` (nothing beyond the eight blocks). -/
def blockSum (g : Fin 8192 → EReal) (b : ℕ) : EReal :=
  if h : b < 8 then ∑ q : Fin 1024, g ⟨b * 1024 + q.val, by have := q.isLt; omega⟩ else 0

/-- A row's terms summed over the first `n` column blocks. -/
def part (g : Fin 8192 → EReal) (n : ℕ) : EReal := ∑ b ∈ Finset.range n, blockSum g b

/-- A point's contribution is the block sum at its block column. -/
theorem step_eq_blockSum (g : Fin 8192 → EReal) (t : Fin cfg0.N) : ∑ q : Fin 1024, g (colOf t q) = blockSum g (t.val % 8) := by
  unfold blockSum
  rw [dif_pos (Nat.mod_lt _ (by decide))]
  rfl

/-- After point `n` both row-sum blocks hold, for each local row, the sum over the column blocks `0 … n % 8`. -/
theorem sums_at (c : Dev nD) : ∀ (n : ℕ) (h : n < cfg0.N) (p : Fin 1024) (z : Fin 1),
    (outsAt0 m c n h).2.1 (ix2 p z) = part (gNum m c (rowOf ⟨n, h⟩ p)) (n % 8 + 1)
    ∧ (outsAt0 m c n h).2.2 (ix2 p z) = part (gDen m c (rowOf ⟨n, h⟩ p)) (n % 8 + 1)
  | 0, h, p, z => by
    have e : ∀ g : Fin 8192 → EReal, part g (0 % 8 + 1) = blockSum g ((⟨0, h⟩ : Fin cfg0.N).val % 8) := fun g => by
      show part g 1 = blockSum g 0
      unfold part
      rw [Finset.sum_range_one]
    exact ⟨(num_at_first m c ⟨0, h⟩ rfl p z).trans ((step_eq_blockSum _ ⟨0, h⟩).trans (e _).symm),
      (den_at_first m c ⟨0, h⟩ rfl p z).trans ((step_eq_blockSum _ ⟨0, h⟩).trans (e _).symm)⟩
  | n + 1, h, p, z => by
    have hN : n + 1 < 64 := lt_of_lt_of_eq h npts
    by_cases h0 : (n + 1) % 8 = 0
    · have e : ∀ g : Fin 8192 → EReal, part g ((n + 1) % 8 + 1) = blockSum g ((⟨n + 1, h⟩ : Fin cfg0.N).val % 8) := fun g => by
        show part g ((n + 1) % 8 + 1) = blockSum g ((n + 1) % 8)
        rw [h0]
        unfold part
        rw [Finset.sum_range_one]
      exact ⟨(num_at_first m c ⟨n + 1, h⟩ h0 p z).trans ((step_eq_blockSum _ ⟨n + 1, h⟩).trans (e _).symm),
        (den_at_first m c ⟨n + 1, h⟩ h0 p z).trans ((step_eq_blockSum _ ⟨n + 1, h⟩).trans (e _).symm)⟩
    · obtain ⟨ihn, ihd⟩ := sums_at c n (Nat.lt_of_succ_lt h) p z
      have hrow : rowOf ⟨n, Nat.lt_of_succ_lt h⟩ p = rowOf ⟨n + 1, h⟩ p := by
        apply Fin.ext
        show n / 8 * 1024 + p.val = (n + 1) / 8 * 1024 + p.val
        have : n / 8 = (n + 1) / 8 := by omega
        rw [this]
      have hm : n % 8 + 1 = (n + 1) % 8 := by omega
      have e : ∀ g : Fin 8192 → EReal, part g (n % 8 + 1) + blockSum g ((⟨n + 1, h⟩ : Fin cfg0.N).val % 8) = part g ((n + 1) % 8 + 1) := fun g => by
        show part g (n % 8 + 1) + blockSum g ((n + 1) % 8) = part g ((n + 1) % 8 + 1)
        rw [hm]
        unfold part
        rw [Finset.sum_range_succ]
      constructor
      · refine (num_at_later m c ⟨n + 1, h⟩ h0 p z).trans ?_
        show (outsAt0 m c n _).2.1 (ix2 p z) + _ = _
        rw [ihn, hrow, step_eq_blockSum _ ⟨n + 1, h⟩]
        exact e _
      · refine (den_at_later m c ⟨n + 1, h⟩ h0 p z).trans ?_
        show (outsAt0 m c n _).2.2 (ix2 p z) + _ = _
        rw [ihd, hrow, step_eq_blockSum _ ⟨n + 1, h⟩]
        exact e _

end Cert.KernelIdeal.Acc

end
-- ==== Proof.Algebra.lean ====
/-
  The laws that join the two arrangements of the loss.

  Over finite entries every clamped norm is a positive real, so scaling the rows before the product and dividing the
  product afterwards agree; dividing by the temperature is multiplying by its exact reciprocal; and a sum over 8192
  columns is the sum over eight blocks of 1024.
-/
import proofs.«418143_j7645041786967_3_alg».proof.Proof.Spec
import Mathlib.Analysis.SpecialFunctions.Pow.Real
import Mathlib.Algebra.BigOperators.Fin

noncomputable section

namespace Cert.Spec

open Idealize.ShloMosaic Idealize.ShloMosaic.ValueIdx

/-- Every entry is a real number. -/
def Finite (x : Mat) : Prop := ∀ idx, ∃ r : ℝ, x idx = (r : EReal)

/-- The word of `1.0` denotes `1`. -/
theorem ofBits_one : Ideal.ofBits .f32 0x3F800000#32 = 1 := by
  simp [Ideal.ofBits, Ideal.ieee, -EReal.coe_mul]; norm_num

/-- The word with every exponent bit set and no fraction bit denotes `+∞`. -/
theorem ofBits_inf : Ideal.ofBits .f32 0x7F800000#32 = ⊤ := by
  simp [Ideal.ofBits, Ideal.ieee]

/-- The temperature's word denotes `9395241 / 2^27`. -/
theorem temp_eq : temp = ((9395241 / 134217728 : ℝ) : EReal) := by
  simp [temp, Ideal.ofBits, Ideal.ieee, -EReal.coe_mul]; norm_num

/-- The floor's word denotes `11258999 / 2^50`, a positive real. -/
theorem eps_pos : ∃ e : ℝ, eps = (e : EReal) ∧ 0 < e := by
  refine ⟨(11258999 / 2 ^ 50 : ℝ), ?_, by positivity⟩
  simp [eps, Ideal.ofBits, Ideal.ieee, -EReal.coe_mul]; norm_num

/-- The coercion of a finite sum of reals is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A clamped norm of finite entries is a positive real. -/
theorem nrm_pos (x : Mat) (hx : Finite x) (i : Fin 8192) : ∃ r : ℝ, nrm x i = (r : EReal) ∧ 0 < r := by
  choose xr hxr using hx
  obtain ⟨e, he, hepos⟩ := eps_pos
  refine ⟨max (Real.sqrt (∑ k : Fin 64, xr (ix2 i k) * xr (ix2 i k))) e, ?_, lt_max_of_lt_right hepos⟩
  -- the sum of squares is the coercion of a real sum of squares, which is nonnegative
  have hs : (∑ k : Fin 64, x (ix2 i k) * x (ix2 i k))
      = ((∑ k : Fin 64, xr (ix2 i k) * xr (ix2 i k) : ℝ) : EReal) := by
    rw [coe_sum]
    refine Finset.sum_congr rfl fun k _ => ?_
    rw [hxr, EReal.coe_mul]
  unfold nrm
  rw [hs, Ideal.sqrt_coe, if_neg (not_lt.mpr (Finset.sum_nonneg fun k _ => mul_self_nonneg _)), he]
  exact (EReal.coe_strictMono.monotone.map_max).symm

/-- Over finite entries, scaling the rows first gives the same cosine as dividing the product. -/
theorem cosK_eq_cosR (a b : Mat) (ha : Finite a) (hb : Finite b) (i j : Fin 8192) : cosK a b i j = cosR a b i j := by
  obtain ⟨na, hna, hnapos⟩ := nrm_pos a ha i
  obtain ⟨nb, hnb, hnbpos⟩ := nrm_pos b hb j
  choose ar har using ha
  choose br hbr using hb
  have hi : ∀ k : Fin 64, (ix2 i k : S8192x64.Idx) 0 = i := fun _ => rfl
  have hj : ∀ k : Fin 64, (ix2 j k : S8192x64.Idx) 0 = j := fun _ => rfl
  unfold cosK cosR unit
  simp only [hi, hj, hna, hnb, har, hbr]
  -- every division is by a positive real: a product with the reciprocal
  rw [← EReal.coe_mul, Ideal.div_coe (mul_pos hnapos hnbpos).ne', Ideal.div_coe hnapos.ne', Ideal.div_coe hnbpos.ne']
  simp only [← EReal.coe_mul, ← coe_sum, one_mul, EReal.coe_one]
  -- in ℝ: ∑ₖ (aₖ/‖a‖)(bₖ/‖b‖) = (∑ₖ aₖ bₖ) / (‖a‖ ‖b‖)
  congr 1
  rw [Finset.sum_mul]
  refine Finset.sum_congr rfl fun k _ => ?_
  field_simp

/-- Over finite entries the two exponentials agree: dividing by `T` is multiplying by its exact reciprocal. -/
theorem eK_eq_eR (a b : Mat) (ha : Finite a) (hb : Finite b) (i j : Fin 8192) : eK a b i j = eR a b i j := by
  have ht : (1 / (9395241 / 134217728) : ℝ) = 134217728 / 9395241 := by norm_num
  unfold eK eR invTemp
  rw [cosK_eq_cosR a b ha hb i j, temp_eq, Ideal.div_coe (by norm_num), ht]

/-- A sum over 8192 columns is the sum over eight blocks of 1024 columns. -/
theorem sum_blocks (f : Fin 8192 → EReal) :
    ∑ bj : Fin 8, ∑ q : Fin 1024, f ⟨bj.val * 1024 + q.val, by have := bj.isLt; have := q.isLt; omega⟩ = ∑ j : Fin 8192, f j := by
  -- the pair (block, offset) ↦ offset + 1024 · block is a bijection onto the 8192 columns
  calc _ = ∑ p : Fin 8 × Fin 1024, f ((finProdFinEquiv : Fin 8 × Fin 1024 ≃ Fin 8192) p) := by
        rw [Fintype.sum_prod_type]
        refine Finset.sum_congr rfl fun bj _ => Finset.sum_congr rfl fun q _ => congrArg f (Fin.ext ?_)
        show bj.val * 1024 + q.val = q.val + 1024 * bj.val
        ring
    _ = _ := Equiv.sum_comp (finProdFinEquiv : Fin 8 × Fin 1024 ≃ Fin 8192) f

end Cert.Spec

end
-- ==== Proof.Final.lean ====
/-
  The three arrays the region leaves, each as one function of the arguments.

  Every point writes its product block back, and the 64 blocks tile the 8192 × 8192 cosine matrix. A row-sum block is
  written back only after the last block column of its block row, when it holds the row's sum over all eight column
  blocks, that is over all 8192 columns; the eight such blocks tile the column of 8192 row sums.
-/
import proofs.«418143_j7645041786967_3_alg».proof.Proof.Accum
import proofs.«418143_j7645041786967_3_alg».proof.Proof.Algebra

noncomputable section

namespace Cert.KernelIdeal.Arrays

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Grid Cert.KernelIdeal.Acc

variable (m : (ℓ : Loc nD τ sig) → Buf (Elt Ideal) ℓ)

/-- The cosine matrix with rows scaled first. -/
def cosArr (c : Dev nD) : S8192x8192.Idx → EReal :=
  fun idx => Cert.Spec.cosK (feaA m c) (feaB m c) (idx 0) (idx 1)

/-- The equal-label row sums, as a column. -/
def numCol (c : Dev nD) : S8192x1.Idx → EReal :=
  fun idx => Cert.Spec.numOf (Cert.Spec.eK (feaA m c) (feaB m c)) (labs m c) (idx 0)

/-- The all-column row sums, as a column. -/
def denCol (c : Dev nD) : S8192x1.Idx → EReal :=
  fun idx => Cert.Spec.denOf (Cert.Spec.eK (feaA m c) (feaB m c)) (idx 0)

/-- The first `8` column blocks are all of them: the partial sums end at the full row sum. -/
theorem part_full (g : Fin 8192 → EReal) : part g 8 = ∑ j : Fin 8192, g j := by
  unfold part
  rw [← Fin.sum_univ_eq_sum_range (fun b => blockSum g b) 8, ← Cert.Spec.sum_blocks g]
  refine Finset.sum_congr rfl fun b _ => ?_
  unfold blockSum
  rw [dif_pos b.isLt]

/-! ## The cosine matrix -/

/-- What point `t` writes back of the product: block `(t / 8, t % 8)` of the cosine matrix. -/
theorem flushed_cos (c : Dev nD) (t : Fin cfg0.N) :
    (dats m 0 c).flushed 4 t = ((cfg0.win 4).blk t).view.read (Elt Ideal) (cosArr m c) := by
  obtain ⟨-, -, -, -, -, -, -, -, e0, e1, -⟩ := index_facts t
  show (cfg0.win 4).cut (grid0.coords t) ((dats m 0 c).after 4 t) = _
  rw [after0_4]
  funext y
  obtain ⟨p, q, rfl⟩ : ∃ (p : Fin 1024) (q : Fin 1024), y = ix2 p q := ⟨y 0, y 1, eq_ix2 y⟩
  rw [View.read_apply]
  refine (prod_at m c t p q).trans ?_
  have hr : rowOf t p = (((cfg0.win 4).blk t).view.emb (ix2 p q)) 0 :=
    Fin.ext (by show t.val / 8 * 1024 + p.val = win0_4.index t (0 : Fin 2) * 1024 + 1 * p.val; rw [e0]; omega)
  have hc : colOf t q = (((cfg0.win 4).blk t).view.emb (ix2 p q)) 1 :=
    Fin.ext (by show t.val % 8 * 1024 + q.val = win0_4.index t (1 : Fin 2) * 1024 + 1 * q.val; rw [e1]; omega)
  unfold cosArr
  rw [← hr, ← hc]
  exact (cast_eq _ _).symm

/-- Every entry of the matrix lies in the block of the point at its block row and block column. -/
theorem cover_cos (i : S8192x8192.Idx) :
    ∃ t : Fin cfg0.N, (cfg0.win 4).flush t = true ∧ i ∈ ((cfg0.win 4).blk t).view.set := by
  have h0 : (i 0).val < 8192 := (i 0).isLt
  have h1 : (i 1).val < 8192 := (i 1).isLt
  have hN := npts
  let t : Fin cfg0.N := ⟨(i 0).val / 1024 * 8 + (i 1).val / 1024, by omega⟩
  obtain ⟨-, -, -, -, -, -, -, -, e0, e1, -⟩ := index_facts t
  have ev : t.val = (i 0).val / 1024 * 8 + (i 1).val / 1024 := rfl
  refine ⟨t, flush0_4 t, ?_⟩
  show i ∈ ((View.whole main_v18_0).slice (win0_4.rect t)).set
  rw [View.set_slice_whole, Rect.mem_set_unit]
  intro a
  match a with
  | ⟨0, _⟩ =>
    show win0_4.index t (0 : Fin 2) * 1024 ≤ (i 0).val ∧ (i 0).val < win0_4.index t (0 : Fin 2) * 1024 + 1024
    rw [e0, ev]; omega
  | ⟨1, _⟩ =>
    show win0_4.index t (1 : Fin 2) * 1024 ≤ (i 1).val ∧ (i 1).val < win0_4.index t (1 : Fin 2) * 1024 + 1024
    rw [e1, ev]; omega

/-- The product array ends as the cosine matrix. -/
theorem final_cos (c : Dev nD) : (dats m 0 c).arrAt 4 cfg0.N = cosArr m c :=
  (dats m 0 c).arrAt_eq_of_cover 4 (cosArr m c) (fun t _ => flushed_cos m c t) cover_cos

/-! ## The two columns of row sums -/

/-- After the last block column of a block row, the equal-label block holds the full row sums. -/
theorem flushed_num (c : Dev nD) (t : Fin cfg0.N) (hf : (cfg0.win 5).flush t = true) :
    (dats m 0 c).flushed 5 t = ((cfg0.win 5).blk t).view.read (Elt Ideal) (numCol m c) := by
  have h7 : t.val % 8 = 7 := (flush0_5 t).mp hf
  obtain ⟨-, -, -, -, -, -, -, -, -, -, e0, e1, -⟩ := index_facts t
  show (cfg0.win 5).cut (grid0.coords t) ((dats m 0 c).after 5 t) = _
  rw [after0_5]
  funext y
  obtain ⟨p, z, rfl⟩ : ∃ (p : Fin 1024) (z : Fin 1), y = ix2 p z := ⟨y 0, y 1, eq_ix2 y⟩
  rw [View.read_apply]
  refine (sums_at m c t.val t.isLt p z).1.trans ?_
  have hr : rowOf t p = (((cfg0.win 5).blk t).view.emb (ix2 p z)) 0 :=
    Fin.ext (by show t.val / 8 * 1024 + p.val = win0_5.index t (0 : Fin 2) * 1024 + 1 * p.val; rw [e0]; omega)
  rw [h7]
  unfold numCol
  rw [← hr]
  exact part_full _

/-- After the last block column of a block row, the all-column block holds the full row sums. -/
theorem flushed_den (c : Dev nD) (t : Fin cfg0.N) (hf : (cfg0.win 6).flush t = true) :
    (dats m 0 c).flushed 6 t = ((cfg0.win 6).blk t).view.read (Elt Ideal) (denCol m c) := by
  have h7 : t.val % 8 = 7 := (flush0_6 t).mp hf
  obtain ⟨-, -, -, -, -, -, -, -, -, -, -, -, e0, e1⟩ := index_facts t
  show (cfg0.win 6).cut (grid0.coords t) ((dats m 0 c).after 6 t) = _
  rw [after0_6]
  funext y
  obtain ⟨p, z, rfl⟩ : ∃ (p : Fin 1024) (z : Fin 1), y = ix2 p z := ⟨y 0, y 1, eq_ix2 y⟩
  rw [View.read_apply]
  refine (sums_at m c t.val t.isLt p z).2.trans ?_
  have hr : rowOf t p = (((cfg0.win 6).blk t).view.emb (ix2 p z)) 0 :=
    Fin.ext (by show t.val / 8 * 1024 + p.val = win0_6.index t (0 : Fin 2) * 1024 + 1 * p.val; rw [e0]; omega)
  rw [h7]
  unfold denCol
  rw [← hr]
  exact part_full _

/-- Every row lies in the block written back after the last block column of its block row. -/
theorem cover_num (i : S8192x1.Idx) :
    ∃ t : Fin cfg0.N, (cfg0.win 5).flush t = true ∧ i ∈ ((cfg0.win 5).blk t).view.set := by
  have h0 : (i 0).val < 8192 := (i 0).isLt
  have h1 : (i 1).val < 1 := (i 1).isLt
  have hN := npts
  let t : Fin cfg0.N := ⟨(i 0).val / 1024 * 8 + 7, by omega⟩
  obtain ⟨-, -, -, -, -, -, -, -, -, -, e0, e1, -⟩ := index_facts t
  have ev : t.val = (i 0).val / 1024 * 8 + 7 := rfl
  refine ⟨t, (flush0_5 t).mpr (by rw [ev]; omega), ?_⟩
  show i ∈ ((View.whole main_v18_1).slice (win0_5.rect t)).set
  rw [View.set_slice_whole, Rect.mem_set_unit]
  intro a
  match a with
  | ⟨0, _⟩ =>
    show win0_5.index t (0 : Fin 2) * 1024 ≤ (i 0).val ∧ (i 0).val < win0_5.index t (0 : Fin 2) * 1024 + 1024
    rw [e0, ev]; omega
  | ⟨1, _⟩ =>
    show win0_5.index t (1 : Fin 2) * 1 ≤ (i 1).val ∧ (i 1).val < win0_5.index t (1 : Fin 2) * 1 + 1
    rw [e1]; omega

theorem cover_den (i : S8192x1.Idx) :
    ∃ t : Fin cfg0.N, (cfg0.win 6).flush t = true ∧ i ∈ ((cfg0.win 6).blk t).view.set := by
  have h0 : (i 0).val < 8192 := (i 0).isLt
  have h1 : (i 1).val < 1 := (i 1).isLt
  have hN := npts
  let t : Fin cfg0.N := ⟨(i 0).val / 1024 * 8 + 7, by omega⟩
  obtain ⟨-, -, -, -, -, -, -, -, -, -, -, -, e0, e1⟩ := index_facts t
  have ev : t.val = (i 0).val / 1024 * 8 + 7 := rfl
  refine ⟨t, (flush0_6 t).mpr (by rw [ev]; omega), ?_⟩
  show i ∈ ((View.whole main_v18_2).slice (win0_6.rect t)).set
  rw [View.set_slice_whole, Rect.mem_set_unit]
  intro a
  match a with
  | ⟨0, _⟩ =>
    show win0_6.index t (0 : Fin 2) * 1024 ≤ (i 0).val ∧ (i 0).val < win0_6.index t (0 : Fin 2) * 1024 + 1024
    rw [e0, ev]; omega
  | ⟨1, _⟩ =>
    show win0_6.index t (1 : Fin 2) * 1 ≤ (i 1).val ∧ (i 1).val < win0_6.index t (1 : Fin 2) * 1 + 1
    rw [e1]; omega

/-- The equal-label array ends as the column of full row sums. -/
theorem final_num (c : Dev nD) : (dats m 0 c).arrAt 5 cfg0.N = numCol m c :=
  (dats m 0 c).arrAt_eq_of_cover 5 (numCol m c) (flushed_num m c) cover_num

/-- The all-column array ends as the column of full row sums. -/
theorem final_den (c : Dev nD) : (dats m 0 c).arrAt 6 cfg0.N = denCol m c :=
  (dats m 0 c).arrAt_eq_of_cover 6 (denCol m c) (flushed_den m c) cover_den

end Cert.KernelIdeal.Arrays

end
-- ==== Proof.Tail.lean ====
/-
  The loss the host computes after the region, as one function of the two row-sum arrays the region leaves.
-/
import proofs.«418143_j7645041786967_3_alg».proof.Proof.Gen.KernelIdeal.Frame
import proofs.«418143_j7645041786967_3_alg».proof.Proof.Spec
import Idealize.ShloMosaic.Lib.Pipeline.Value
import Idealize.ShloMosaic.Lib.StableHlo.Run

noncomputable section

namespace Cert.KernelIdeal.HostOut

open Idealize.ShloMosaic Idealize.ShloMosaic.TcCoe Idealize.SL.Sem
open Cert.KernelIdeal Cert.KernelIdeal.Gen

variable {F : FTy → Type} [FloatOps F] [Named F]
variable (m : (ℓ : Loc nD τ sig) → Buf (Elt F) ℓ)

/-- The equal-label row sums the region leaves, as a vector over the rows. -/
abbrev numArr (c : Dev nD) : FVec F S8192 .f32 :=
  shapeCast S8192 ((dats m 0 c).arrAt 5 cfg0.N : FVec F S8192x1 .f32) shapeCasts_S8192x1_S8192

/-- The all-column row sums the region leaves, as a vector over the rows. -/
abbrev denArr (c : Dev nD) : FVec F S8192 .f32 :=
  shapeCast S8192 ((dats m 0 c).arrAt 6 cfg0.N : FVec F S8192x1 .f32) shapeCasts_S8192x1_S8192

/-- Window 5's array (the equal-label row sums), read back from the contents the region leaves. -/
private theorem arr5 (c : Dev nD) :
    Pipeline.withArrays (cfgs 0).spec c (V0 m c) (fun w => (dats m 0 c).arrAt w (cfgs 0).N) (Proc.devRef .tc main_v18_1)
      = (dats m 0 c).arrAt 5 (cfgs 0).N :=
  Pipeline.withArrays_arr (cfgs 0).spec launch0.win.arr_inj c (V0 m c) (fun w => (dats m 0 c).arrAt w (cfgs 0).N) 5

/-- Window 6's array (the all-column row sums), read back from the contents the region leaves. -/
private theorem arr6 (c : Dev nD) :
    Pipeline.withArrays (cfgs 0).spec c (V0 m c) (fun w => (dats m 0 c).arrAt w (cfgs 0).N) (Proc.devRef .tc main_v18_2)
      = (dats m 0 c).arrAt 6 (cfgs 0).N :=
  Pipeline.withArrays_arr (cfgs 0).spec launch0.win.arr_inj c (V0 m c) (fun w => (dats m 0 c).arrAt w (cfgs 0).N) 6

set_option maxHeartbeats 2000000 in
/-- The first result after the host's closing operations is the loss of the two row-sum arrays. -/
theorem loss_eq (c : Dev nD) :
    Pipeline.afterTail₀ cfgs (dats m) 0 (V0 m) [hostOps1, hostOps1_1, hostOps1_2] c main_v31
      = Cert.Spec.lossOf bcast_S_S8192 reducesTo_S8192_S_d0 h_S_ shapeCasts_S_S1 (numArr m c) (denArr m c) := by
  unfold Pipeline.afterTail₀
  simp only [Gen.hostOps1, Gen.hostOps1_1, Gen.hostOps1_2, List.flatten_cons, List.flatten_nil, List.append_nil,
    List.cons_append, List.nil_append]
  -- the contents the region leaves, named once; only its entries at the two row-sum arrays are read
  have e5 := arr5 m c
  have e6 := arr6 m c
  generalize Pipeline.withArrays (cfgs 0).spec c (V0 m c) (fun w => (dats m 0 c).arrAt w (cfgs 0).N) = W at e5 e6 ⊢
  -- each closing operation's result, in order, down to the two arrays
  after_results
  rw [e5, e6]
  -- both sides are now the same operations on the same two arrays; the shape facts are propositions
  rfl

end Cert.KernelIdeal.HostOut

end
-- ==== Proof.KRun.lean ====
/-
  The idealized kernel's run, read: its two results as functions of the arguments.

  The second result is the cosine matrix (rows scaled first). The first is the loss of the two row sums of
  `exp (cos · (1/T))`: the host's closing operations applied to the two columns the region leaves, each read as a
  vector over the rows.
-/
import proofs.«418143_j7645041786967_3_alg».proof.Proof.Final
import proofs.«418143_j7645041786967_3_alg».proof.Proof.Tail

noncomputable section

namespace Cert.KernelIdeal.KVal

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Acc Cert.KernelIdeal.Arrays

variable (m : (ℓ : Loc nD τ sig) → Buf (Elt Ideal) ℓ) (ρ : Dev nD → PrngReg)

/-- A column `[a, 1]` read as a vector `[a]`: entry `i` is the column's entry `(i, 0)`. -/
theorem col_as_vec {α : Type} {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- The equal-label row sums as a vector over the rows. -/
def numVec (c : Dev nD) : FVec Ideal S8192 .f32 :=
  fun idx => Cert.Spec.numOf (Cert.Spec.eK (feaA m c) (feaB m c)) (labs m c) (idx 0)

/-- The all-column row sums as a vector over the rows. -/
def denVec (c : Dev nD) : FVec Ideal S8192 .f32 :=
  fun idx => Cert.Spec.denOf (Cert.Spec.eK (feaA m c) (feaB m c)) (idx 0)

theorem numArr_eq (c : Dev nD) : HostOut.numArr m c = numVec m c := by
  funext idx
  obtain ⟨i, rfl⟩ : ∃ i : Fin 8192, idx = ix1 i := ⟨idx 0, eq_ix1 idx⟩
  unfold HostOut.numArr
  rw [final_num m c]
  exact col_as_vec (numCol m c) _ i

theorem denArr_eq (c : Dev nD) : HostOut.denArr m c = denVec m c := by
  funext idx
  obtain ⟨i, rfl⟩ : ∃ i : Fin 8192, idx = ix1 i := ⟨idx 0, eq_ix1 idx⟩
  unfold HostOut.denArr
  rw [final_den m c]
  exact col_as_vec (denCol m c) _ i

/-- The loss the idealized kernel returns. -/
def lossVal (c : Dev nD) : FVec Ideal S1 .f32 :=
  Cert.Spec.lossOf (F := Ideal) bcast_S_S8192 reducesTo_S8192_S_d0 h_S_ shapeCasts_S_S1 (numVec m c) (denVec m c)

/-- Every weakly fair execution ends with the loss and the cosine matrix in the two results, the arguments unchanged. -/
theorem run : θ_run defs (onTc (τ := τ) (main (F := Ideal))) ⟨m, fun _ => 0, ρ⟩ fun r => ∀ c : Dev nD,
      r.2.mem ((c : Thread nD τ).loc main_v31) = lossVal m c
      ∧ r.2.mem ((c : Thread nD τ).loc main_v18_0) = cosArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v31 (Pipeline.mem_restRefs_of main_v31 (by decide) (by decide))).trans
        ((HostOut.loss_eq m c).trans (by rw [numArr_eq m c, denArr_eq m c]; rfl)),
      ((h c).1 4).trans (final_cos m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KVal

end
-- ==== Proof.RefValue.lean ====
/-
  What the reference computes, read index by index over the extended reals: its cosine matrix is the quotient form,
  its two row sums are the sums of `exp (cos / T)`, and its first result is the loss of those sums.
-/
import proofs.«418143_j7645041786967_3_alg».proof.Defs
import proofs.«418143_j7645041786967_3_alg».proof.Proof.Gen.ReferenceIdeal.Read
import proofs.«418143_j7645041786967_3_alg».proof.Proof.Spec
import Idealize.ShloMosaic.Lib.ValueLayout

noncomputable section

namespace Cert.ReferenceIdeal.RefValue

open Idealize.ShloMosaic Idealize.ShloMosaic.TcCoe Idealize.SL.Sem Idealize.ShloMosaic.ValueIdx
open Cert.ReferenceIdeal Cert.ReferenceIdeal.Gen Cert.ReferenceIdeal.Read

variable (x0 : (⟨S8192, .i32⟩ : BufTy).Contents (Elt Ideal)) (x1 x2 : (⟨S8192x64, .f32⟩ : BufTy).Contents (Elt Ideal))

/-- The reference's cosine matrix is the product's entry over the product of the clamped norms. -/
theorem cos_eq : val_main_v13 (F := Ideal) x1 x2 = fun idx => Cert.Spec.cosR x1 x2 (idx 0) (idx 1) := by
  funext idx
  obtain ⟨i, j, rfl⟩ : ∃ (i : Fin 8192) (j : Fin 8192), idx = ix2 i j := ⟨idx 0, idx 1, eq_ix2 idx⟩
  -- The quotient, its numerator (a sum over the 64 columns) and its denominator (the two clamped norms, each a
  -- column vector or a row vector spread over the square) read at `(i, j)`.
  rw [val_main_v13_apply, val_main_v7_apply, val_main_v12_apply, val_main_v10_apply, val_main_v11_apply,
    val_main_v8_apply, val_main_v9_apply, val_main_v2_apply, val_main_v5_apply, val_main_v0_apply, val_main_v3_apply,
    val_main_call0_v1_apply, val_main_call1_v1_apply, val_main_v1_apply, val_main_v4_apply]
  -- Where each operand is read: the left factor at `(i, k)`, the transposed right factor at `(j, k)`, and the two
  -- sums of squares along row `i` of the first matrix and row `j` of the second.
  have el : ∀ k : Fin 64, lidx_main_v7 (ix2 i j) k = ix2 i k := fun k =>
    funext fun a => Fin.ext (by match a with | ⟨0, _⟩ => rfl | ⟨1, _⟩ => rfl)
  have er : ∀ k : Fin 64, idx_main_v6 (ridx_main_v7 (ix2 i j) k) = ix2 j k := fun k =>
    funext fun a => Fin.ext (by match a with | ⟨0, _⟩ => rfl | ⟨1, _⟩ => rfl)
  have ea : ∀ k : Fin 64, idx_main_call0_v1 (idx_main_v8 (idx_main_v10 (ix2 i j))) k = ix2 i k := fun k =>
    funext fun a => Fin.ext (by match a with | ⟨0, _⟩ => rfl | ⟨1, _⟩ => rfl)
  have eb : ∀ k : Fin 64, idx_main_call1_v1 (idx_main_v9 (idx_main_v11 (ix2 i j))) k = ix2 j k := fun k =>
    funext fun a => Fin.ext (by match a with | ⟨0, _⟩ => rfl | ⟨1, _⟩ => rfl)
  -- Over the extended reals the operations are the quotient, product, maximum and square root; a sum starts from zero.
  simp only [val_main_v6_apply, val_main_call0_v0_apply, val_main_call1_v0_apply, val_main_call0_cst_apply,
    val_main_call1_cst_apply, val_main_cst_apply, val_main_cst_0_apply, el, er, ea, eb,
    Ideal.hostDivf_def, Ideal.mulf_def, Ideal.maximumf_def, Ideal.hostUnary_sqrt_def, Ideal.ofBits_def,
    Ideal.ofBits_zero_f32, zero_add]
  unfold Cert.Spec.cosR Cert.Spec.nrm Cert.Spec.eps
  rfl

/-- The cosine matrix read at the coordinates `(i, j)`. -/
private theorem cos_at (i j : Fin 8192) : val_main_v13 (F := Ideal) x1 x2 (ix2 i j) = Cert.Spec.cosR x1 x2 i j :=
  congrFun (cos_eq x1 x2) (ix2 i j)

/-- The exponential stage read at the coordinates `(i, j)`: `exp (cos / T)`, the divisor being the temperature's
    word spread over the square. -/
private theorem exp_at (i j : Fin 8192) : val_main_v16 (F := Ideal) x1 x2 (ix2 i j) = Cert.Spec.eR x1 x2 i j := by
  rw [val_main_v16_apply, val_main_v15_apply, val_main_v14_apply, val_main_cst_1_apply, cos_at]
  simp only [Ideal.hostUnary_exp_def, Ideal.hostDivf_def, Ideal.ofBits_def]
  unfold Cert.Spec.eR Cert.Spec.temp
  rfl

/-- The reference's equal-label row sums. -/
theorem num_eq : val_main_v23 (F := Ideal) x0 x1 x2 = fun idx => Cert.Spec.numOf (Cert.Spec.eR x1 x2) x0 (idx 0) := by
  funext idx
  obtain ⟨i, rfl⟩ : ∃ (i : Fin 8192), idx = ix1 i := ⟨idx 0, eq_ix1 idx⟩
  -- Row `i`'s sum runs over the columns `k` of the masked exponentials, starting from zero.
  rw [val_main_v23_apply]
  have e0 : ∀ k : Fin 8192, idx_main_v23 (ix1 i) k = ix2 i k := fun k =>
    funext fun a => Fin.ext (by match a with | ⟨0, _⟩ => rfl | ⟨1, _⟩ => rfl)
  -- The label vector spread down the columns is read at `i`, spread along the rows at `k`.
  have e1 : ∀ k : Fin 8192, idx_main_v17 (idx_main_v19 (ix2 i k)) = ix1 i := fun k =>
    funext fun a => Fin.ext (by match a with | ⟨0, _⟩ => rfl)
  have e2 : ∀ k : Fin 8192, idx_main_v18 (idx_main_v20 (ix2 i k)) = ix1 k := fun k =>
    funext fun a => Fin.ext (by match a with | ⟨0, _⟩ => rfl)
  -- The entry at `(i, k)` is the exponential where the two labels agree and zero elsewhere.
  simp only [e0, val_main_v22_apply, val_main_v21_apply, val_main_v19_apply, val_main_v20_apply, val_main_v17_apply,
    val_main_v18_apply, e1, e2, exp_at, val_main_call2_v1_apply, val_main_call2_v0_apply, val_main_cst_2_apply,
    val_main_cst_3_apply, Ideal.ofBits_def, Ideal.ofBits_zero_f32, zero_add]
  unfold Cert.Spec.numOf Cert.Spec.same
  rfl

/-- The reference's all-column row sums. -/
theorem den_eq : val_main_v24 (F := Ideal) x1 x2 = fun idx => Cert.Spec.denOf (Cert.Spec.eR x1 x2) (idx 0) := by
  funext idx
  obtain ⟨i, rfl⟩ : ∃ (i : Fin 8192), idx = ix1 i := ⟨idx 0, eq_ix1 idx⟩
  -- Row `i`'s sum runs over the columns `k` of the exponentials, starting from zero.
  rw [val_main_v24_apply]
  have e0 : ∀ k : Fin 8192, idx_main_v24 (ix1 i) k = ix2 i k := fun k =>
    funext fun a => Fin.ext (by match a with | ⟨0, _⟩ => rfl | ⟨1, _⟩ => rfl)
  simp only [e0, exp_at, val_main_cst_4_apply, Ideal.ofBits_def, Ideal.ofBits_zero_f32, zero_add]
  unfold Cert.Spec.denOf
  rfl

/-- The reference's first result is the loss of its two row sums. -/
theorem loss_eq : val_main_v35 (F := Ideal) x0 x1 x2
    = Cert.Spec.lossOf (F := Ideal) bcast_S_S8192 reducesTo_S8192_S_d0 h_S_ shapeCasts_S_S1 (val_main_v23 (F := Ideal) x0 x1 x2) (val_main_v24 (F := Ideal) x1 x2) := by
  -- The last stages, from the comparison of the numerator with zero down to the one-element result, are the
  -- operations the loss is written with, applied to the same two row sums.
  unfold val_main_v35 val_main_v34 val_main_v33 val_main_v32 val_main_v31 val_main_v30 val_main_v29 val_main_v28
    val_main_v27 val_main_v26 val_main_v25 val_main_cst_5 val_main_cst_6 val_main_cst_7 val_main_cst_8 Cert.Spec.lossOf
  rfl

end Cert.ReferenceIdeal.RefValue

end
-- ==== Proof.FiniteIn.lean ====
/-
  The precondition, read: every entry of both feature matrices is a real number.
-/
import proofs.«418143_j7645041786967_3_alg».proof.Pre_finite_inputs
import proofs.«418143_j7645041786967_3_alg».proof.Proof.Algebra
import Idealize.ShloMosaic.Lib.ReduceAll

noncomputable section

namespace Cert.Spec

open Idealize.ShloMosaic

/-- The rank-zero shape has exactly one index. -/
instance : Subsingleton S_.Idx := ⟨fun a b => funext fun d => d.elim0⟩

/-- An extended real whose absolute value lies below `+∞` is a real number. -/
theorem real_of_abs_lt_top (x : EReal) (h : max x (-x) < ⊤) : ∃ r : ℝ, x = (r : EReal) := by
  induction x using EReal.rec with
  | bot => simp at h
  | coe r => exact ⟨r, rfl⟩
  | top => simp at h

/-- An entry whose absolute value compares below the word of `+∞` is a real number. -/
theorem real_of_lt_inf (x : EReal)
    (e : Ideal.cmp .olt (max x (-x)) (Ideal.ofBits .f32 0x7F800000#32) = 1#1) : ∃ r : ℝ, x = (r : EReal) := by
  rw [ofBits_inf] at e
  refine real_of_abs_lt_top x ?_
  by_contra hn
  simp [Ideal.cmp, hn] at e

/-- If the printed precondition answers one on labels `lab` and features `a`, `b`, then `a` and `b` are finite. -/
theorem finite_of_pre [Cert.Pre_finite_inputs.Facts] (lab : Lab) (a b : Mat)
    (h : Cert.Pre_finite_inputs.fn (F := Ideal) lab a b = fun _ => 1#1) : Finite a ∧ Finite b := by
  -- the answer at the one index is the conjunction of the two reductions by `and`
  have h0 := congrFun h ValueIdx.ix0
  dsimp only [Cert.Pre_finite_inputs.fn] at h0
  obtain ⟨h1, h2⟩ := IntOp.andi_eq_one.1 h0
  -- each reduction being one, every compared entry satisfies |x| < +∞
  refine ⟨fun idx => ?_, fun idx => ?_⟩
  · exact real_of_lt_inf (a idx) (Host.reduce_andi_all _ _ _ _ _ h1 idx)
  · exact real_of_lt_inf (b idx) (Host.reduce_andi_all _ _ _ _ _ h2 idx)

end Cert.Spec

end
-- ==== Proof.Claims.lean ====
/-
  The five claims.

  The frames are the generated runs. The one rewrite of the idealization names the kernel's scale constant the exact
  reciprocal of the reference's temperature. For the equivalence both runs are read through one specification: the
  cosine matrices agree because, the features being finite, every clamped norm is a positive real, so scaling rows
  before the product is dividing the product afterwards; the exponentials agree because multiplying by the exact
  reciprocal is dividing; the row sums are then sums of equal terms, and the loss is the same function of them.
-/
import proofs.«418143_j7645041786967_3_alg».proof.Defs
import proofs.«418143_j7645041786967_3_alg».proof.Proof.Gen.Kernel.Frame
import proofs.«418143_j7645041786967_3_alg».proof.Proof.Gen.KernelIdeal.Frame
import proofs.«418143_j7645041786967_3_alg».proof.Proof.Gen.ReferenceIdeal
import proofs.«418143_j7645041786967_3_alg».proof.Proof.Gen.ReferenceIdeal.Run
import proofs.«418143_j7645041786967_3_alg».proof.Proof.Gen.Pre_finite_inputs
import proofs.«418143_j7645041786967_3_alg».proof.Proof.KRun
import proofs.«418143_j7645041786967_3_alg».proof.Proof.RefValue
import proofs.«418143_j7645041786967_3_alg».proof.Proof.FiniteIn

noncomputable section

namespace Cert.Proof.Claims

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

/-- The scale constant's name denotes `134217728 / 9395241`, the reciprocal of the temperature's exact value. -/
theorem preserves : Cert.preserves_Kernel_KernelIdeal :=
  IdealRules.named_const.statement Cert.KernelIdeal.κ "inv_temp" .f32 0x41649249#32 ((134217728 / 9395241 : ℝ) : EReal) rfl

/-- From memories that agree on the arguments both runs end with the loss and the cosine matrix of the specification. -/
theorem algebraic : Cert.algebraic_KernelIdeal_ReferenceIdeal := by
  intro m ρ m' ρ' hpre hagree
  refine ⟨fun c => Cert.KernelIdeal.KVal.lossVal m c, fun c => Cert.KernelIdeal.Arrays.cosArr m c,
    Cert.KernelIdeal.KVal.run m ρ, ?_⟩
  refine (θ_run Cert.ReferenceIdeal.defs _ _).mono (fun _ h c => ?_) (Cert.ReferenceIdeal.Value.run (F := Ideal) m' ρ')
  obtain ⟨h1, h2, h3, h4, h5⟩ := h c
  obtain ⟨ea0, ea1, ea2⟩ := hagree c
  obtain ⟨hfa, hfb⟩ := Cert.Spec.finite_of_pre _ _ _ (hpre c)
  have hE : Cert.Spec.eR (Cert.KernelIdeal.Acc.feaA m c) (Cert.KernelIdeal.Acc.feaB m c)
      = Cert.Spec.eK (Cert.KernelIdeal.Acc.feaA m c) (Cert.KernelIdeal.Acc.feaB m c) :=
    funext fun i => funext fun j => (Cert.Spec.eK_eq_eR _ _ hfa hfb i j).symm
  refine ⟨h1.trans ?_, h2.trans ?_, h3, h4, h5⟩
  · rw [Cert.ReferenceIdeal.Read.val_main_v35_eq, Cert.ReferenceIdeal.RefValue.loss_eq, Cert.ReferenceIdeal.RefValue.num_eq,
      Cert.ReferenceIdeal.RefValue.den_eq, ea0, ea1, ea2]
    show Cert.Spec.lossOf (F := Ideal) _ _ _ _
        (fun idx => Cert.Spec.numOf (Cert.Spec.eR (Cert.KernelIdeal.Acc.feaA m c) (Cert.KernelIdeal.Acc.feaB m c)) (Cert.KernelIdeal.Acc.labs m c) (idx 0))
        (fun idx => Cert.Spec.denOf (Cert.Spec.eR (Cert.KernelIdeal.Acc.feaA m c) (Cert.KernelIdeal.Acc.feaB m c)) (idx 0)) = _
    rw [hE]
    rfl
  · refine (Cert.ReferenceIdeal.Read.val_main_v13_eq _ _).trans ?_
    rw [Cert.ReferenceIdeal.RefValue.cos_eq, ea1, ea2]
    funext idx
    exact (Cert.Spec.cosK_eq_cosR _ _ hfa hfb (idx 0) (idx 1)).symm

end Cert.Proof.Claims

end
-- ==== Proof.lean ====
/-
  A contrastive (InfoNCE) loss with its cosine matrix: a tiled kernel against the plain formula.

  Inputs: labels `lab : [8192]`, features `a b : [8192, 64]`, every feature entry finite. With
  `‖x‖ᵢ = max (√(∑ₖ xᵢₖ²)) ε`, `cos i j = (∑ₖ aᵢₖ bⱼₖ) / (‖a‖ᵢ ‖b‖ⱼ)` and `e i j = exp (cos i j / T)`, both programs
  return the matrix `cos` and the loss `-(1/8192) ∑ᵢ log (numᵢ / denᵢ)`, where `denᵢ = ∑ⱼ e i j` and `numᵢ` is the same
  sum over the columns whose label equals row `i`'s (raised by `0.01` where it is zero).

  The kernel arranges this differently. The host scales every row by `1 / ‖·‖` first, so a block of the matrix product
  is already a block of `cos`; the exponent is `cos · c` with `c` the constant named `1/T` exactly; and an 8 × 8 grid of
  1024 × 1024 tiles accumulates the two row sums across the eight column tiles of each row tile, reset at the first
  and written back after the last. Over the extended reals these are the same functions:
    * the norms of finite rows are positive reals, so scaling before the product is dividing after it;
    * dividing by `T` is multiplying by its exact reciprocal;
    * a sum over 8192 columns is the sum over eight blocks of 1024, whatever the order;
    * the closing host operations are the same function of the two row sums in both programs.
  The modules: Spec (the formula), Algebra and FiniteIn (the laws, and finiteness from the precondition), Pieces and
  Payloads (one run of the body), Inputs and Tail (the host operations around the region), Blocks, Accum and Final
  (from grid points to whole arrays), KRun and RefValue (the two runs read), Claims (the five claims).
-/
import proofs.«418143_j7645041786967_3_alg».proof.Defs
import proofs.«418143_j7645041786967_3_alg».proof.Proof.Gen.Kernel
import proofs.«418143_j7645041786967_3_alg».proof.Proof.Gen.KernelIdeal
import proofs.«418143_j7645041786967_3_alg».proof.Proof.Gen.ReferenceIdeal
import proofs.«418143_j7645041786967_3_alg».proof.Proof.Gen.Pre_finite_inputs
import proofs.«418143_j7645041786967_3_alg».proof.Proof.Claims

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
